-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x1024x1024 : Shape := ⟨4, ![8, 4, 1024, 1024]⟩
abbrev S8x1024x1024 : Shape := ⟨3, ![8, 1024, 1024]⟩
abbrev S8x4x4096x256 : Shape := ⟨4, ![8, 4, 4096, 256]⟩
abbrev S_ : Shape := ⟨0, ![]⟩

class Facts : Prop where
  bcast_S_S8x4x1024x1024 : S_.BroadcastsInDim S8x4x1024x1024 (![] : Fin 0 → Fin S8x4x1024x1024.rank)
  reducesTo_S8x4x1024x1024_S_d0_1_2_3 : S8x4x1024x1024.ReducesTo [0, 1, 2, 3] S_
  h_S_ : 0 < S_.numel
  bcast_S_S8x4x4096x256 : S_.BroadcastsInDim S8x4x4096x256 (![] : Fin 0 → Fin S8x4x4096x256.rank)
  reducesTo_S8x4x4096x256_S_d0_1_2_3 : S8x4x4096x256.ReducesTo [0, 1, 2, 3] S_

variable [Facts]

def fn {F : FTy → Type} [FloatOps F] (main_arg0 : FVec F S8x4x1024x1024 .f32) (main_arg1 : IVec S8x1024x1024 32) (main_arg2 : FVec F S8x4x4096x256 .f32) : IVec S_ 1 :=
  let main_v0 : FVec F S8x4x1024x1024 .f32 := Host.absf main_arg0
  let main_cst : FVec F S_ .f32 := constant S_ .f32 0x7F800000#32
  let main_v1 : FVec F S8x4x1024x1024 .f32 := broadcastInDim S8x4x1024x1024 ![] bcast_S_S8x4x1024x1024 main_cst
  let main_v2 : IVec S8x4x1024x1024 1 := cmpf .olt main_v0 main_v1
  let main_c : IVec S_ 1 := constantI S_ 1 1#1
  let main_v3 : IVec S_ 1 := (fun x v => Host.reduce IntOp.andi x v reducesTo_S8x4x1024x1024_S_d0_1_2_3 h_S_) main_v2 main_c
  let main_v4 : FVec F S8x4x4096x256 .f32 := Host.absf main_arg2
  let main_cst_0 : FVec F S_ .f32 := constant S_ .f32 0x7F800000#32
  let main_v5 : FVec F S8x4x4096x256 .f32 := broadcastInDim S8x4x4096x256 ![] bcast_S_S8x4x4096x256 main_cst_0
  let main_v6 : IVec S8x4x4096x256 1 := cmpf .olt main_v4 main_v5
  let main_c_1 : IVec S_ 1 := constantI S_ 1 1#1
  let main_v7 : IVec S_ 1 := (fun x v => Host.reduce IntOp.andi x v reducesTo_S8x4x4096x256_S_d0_1_2_3 h_S_) main_v6 main_c_1
  let main_v8 : IVec S_ 1 := andi main_v3 main_v7
  main_v8
-- ==== Kernel.lean ====
abbrev S8x4x1024x1024 : Shape := ⟨4, ![8, 4, 1024, 1024]⟩
abbrev S8x1024x1024 : Shape := ⟨3, ![8, 1024, 1024]⟩
abbrev S8x4x4096x256 : Shape := ⟨4, ![8, 4, 4096, 256]⟩
abbrev S8x4x256x256 : Shape := ⟨4, ![8, 4, 256, 256]⟩
abbrev S1x1024x1024 : Shape := ⟨3, ![1, 1024, 1024]⟩
abbrev S1x4x256x256 : Shape := ⟨4, ![1, 4, 256, 256]⟩
abbrev S1024x1024 : Shape := ⟨2, ![1024, 1024]⟩
abbrev S256x4x1024 : Shape := ⟨3, ![256, 4, 1024]⟩
abbrev S256x1024 : Shape := ⟨2, ![256, 1024]⟩
abbrev S256x256x4 : Shape := ⟨3, ![256, 256, 4]⟩
abbrev S256x256 : Shape := ⟨2, ![256, 256]⟩
abbrev S1x1x256x256 : Shape := ⟨4, ![1, 1, 256, 256]⟩
abbrev S1x1 : Shape := ⟨2, ![1, 1]⟩
abbrev S1x256x1024 : Shape := ⟨3, ![1, 256, 1024]⟩
abbrev S1x4x1024x256 : Shape := ⟨4, ![1, 4, 1024, 256]⟩
abbrev S16x16x64x16 : Shape := ⟨4, ![16, 16, 64, 16]⟩
abbrev S16x16x16x64 : Shape := ⟨4, ![16, 16, 16, 64]⟩
abbrev S16x16x16x16 : Shape := ⟨4, ![16, 16, 16, 16]⟩
abbrev S1024x256 : Shape := ⟨2, ![1024, 256]⟩
abbrev S1x1x1024x256 : Shape := ⟨4, ![1, 1, 1024, 256]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 6
  | .vmem => 12
  | .smem => 0
  | _ => 0

abbrev bufTy : (tb : Table) → Fin (tcTables nBuf tb) → BufTy
  | .hbm, ⟨0, _⟩ => ⟨S8x4x1024x1024, .f32⟩
  | .hbm, ⟨1, _⟩ => ⟨S8x1024x1024, .i32⟩
  | .hbm, ⟨2, _⟩ => ⟨S8x4x4096x256, .f32⟩
  | .hbm, ⟨3, _⟩ => ⟨S8x4x256x256, .f32⟩
  | .hbm, ⟨4, _⟩ => ⟨S1x1, .f32⟩
  | .hbm, ⟨5, _⟩ => ⟨S_, .f32⟩
  | .local _ .vmem, ⟨0, _⟩ => ⟨S1x1024x1024, .i32⟩
  | .local _ .vmem, ⟨1, _⟩ => ⟨S1x1024x1024, .i32⟩
  | .local _ .vmem, ⟨2, _⟩ => ⟨S1x4x256x256, .f32⟩
  | .local _ .vmem, ⟨3, _⟩ => ⟨S1x4x256x256, .f32⟩
  | .local _ .vmem, ⟨4, _⟩ => ⟨S1x256x1024, .i32⟩
  | .local _ .vmem, ⟨5, _⟩ => ⟨S1x256x1024, .i32⟩
  | .local _ .vmem, ⟨6, _⟩ => ⟨S1x4x256x256, .f32⟩
  | .local _ .vmem, ⟨7, _⟩ => ⟨S1x4x256x256, .f32⟩
  | .local _ .vmem, ⟨8, _⟩ => ⟨S1x4x1024x256, .f32⟩
  | .local _ .vmem, ⟨9, _⟩ => ⟨S1x4x1024x256, .f32⟩
  | .local _ .vmem, ⟨10, _⟩ => ⟨S1x1, .f32⟩
  | .local _ .vmem, ⟨11, _⟩ => ⟨S1x1, .f32⟩
  | _, _ => ⟨S8x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def k1_cond2 (i : grid1.Coords) : BitVec 1 :=
  let arg0 : BitVec 32 := BitVec.ofNat 32 (i 0).val
  let c7_i32 : BitVec 32 := 7#32
  let v127 : BitVec 1 := Scalar.cmpi .eq arg0 c7_i32
  let arg1 : BitVec 32 := BitVec.ofNat 32 (i 1).val
  let c3_i32_65 : BitVec 32 := 3#32
  let v128 : BitVec 1 := Scalar.cmpi .eq arg1 c3_i32_65
  let v129 : BitVec 1 := Scalar.andi v127 v128
  let v130 : BitVec 32 := Scalar.extui v129
  let c0_i32_66 : BitVec 32 := 0#32
  let v131 : BitVec 1 := Scalar.cmpi .ne v130 c0_i32_66
  v131

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4x1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  natLt_1_32 : 1 < 32
  shapeCasts_S1024x1024_S256x4x1024 : S1024x1024.ShapeCasts S256x4x1024
  reduces_S256x4x1024_S256x1024 : S256x4x1024.Reduces [1] S256x1024
  shapeCasts_S256x1024_S256x256x4 : S256x1024.ShapeCasts S256x256x4
  reduces_S256x256x4_S256x256 : S256x256x4.Reduces [2] S256x256
  inb_S1x4x256x256_S1x1x256x256_0_0_0_0 : ∀ a, (![0, 0, 0, 0] : Fin 4 → Nat) a + S1x1x256x256.size a ≤ S1x4x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  inb_S1x4x256x256_S1x1x256x256_0_1_0_0 : ∀ a, (![0, 1, 0, 0] : Fin 4 → Nat) a + S1x1x256x256.size a ≤ S1x4x256x256.size a
  inb_S1x4x256x256_S1x1x256x256_0_2_0_0 : ∀ a, (![0, 2, 0, 0] : Fin 4 → Nat) a + S1x1x256x256.size a ≤ S1x4x256x256.size a
  inb_S1x4x256x256_S1x1x256x256_0_3_0_0 : ∀ a, (![0, 3, 0, 0] : Fin 4 → Nat) a + S1x1x256x256.size a ≤ S1x4x256x256.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S16x16x64x16 : S256x1024.ShapeCasts S16x16x64x16
  transposes_S16x16x64x16_p1_3_0_2_S16x16x16x64 : S16x16x64x16.Transposes [1, 3, 0, 2] S16x16x16x64
  shapeCasts_S16x16x16x64_S256x1024 : S16x16x16x64.ShapeCasts S256x1024
  shapeCasts_S256x256_S16x16x16x16 : S256x256.ShapeCasts S16x16x16x16
  transposes_S16x16x16x16_p1_3_0_2_S16x16x16x16 : S16x16x16x16.Transposes [1, 3, 0, 2] S16x16x16x16
  shapeCasts_S16x16x16x16_S256x256 : S16x16x16x16.ShapeCasts S256x256
  bitsLt_bf16_f32 : FTy.bits .bf16 < FTy.bits .f32
  inb_S1x4x1024x256_S1x1x1024x256_0_0_0_0 : ∀ a, (![0, 0, 0, 0] : Fin 4 → Nat) a + S1x1x1024x256.size a ≤ S1x4x1024x256.size a
  h_S1x1x1024x256 : 0 < S1x1x1024x256.numel
  shapeCasts_S1x1x1024x256_S1024x256 : S1x1x1024x256.ShapeCasts S1024x256
  reduces_S1024x256_S1024 : S1024x256.Reduces [1] S1024
  shapeCasts_S1024_S1024x1 : S1024.ShapeCasts S1024x1
  reduces_S1024x1_S1 : S1024x1.Reduces [0] S1
  shapeCasts_S1_S1x1 : S1.ShapeCasts S1x1
  inb_S1x4x1024x256_S1x1x1024x256_0_1_0_0 : ∀ a, (![0, 1, 0, 0] : Fin 4 → Nat) a + S1x1x1024x256.size a ≤ S1x4x1024x256.size a
  inb_S1x4x1024x256_S1x1x1024x256_0_2_0_0 : ∀ a, (![0, 2, 0, 0] : Fin 4 → Nat) a + S1x1x1024x256.size a ≤ S1x4x1024x256.size a
  inb_S1x4x1024x256_S1x1x1024x256_0_3_0_0 : ∀ a, (![0, 3, 0, 0] : Fin 4 → Nat) a + S1x1x1024x256.size a ≤ S1x4x1024x256.size a
  shapeCasts_S1x1_S_ : S1x1.ShapeCasts S_
  dot_S256x1024_S256x256_S1024x256_0_0_1_1_n_n_wf : DotDims.WF S256x1024 S256x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .i32 = 32 ∨ (Rect.block (s := S8x1024x1024) S1x1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S8x4x256x256.size a
  hwx0_1 : ∀ i : grid0.Coords, EltTy.bits .f32 = 32 ∨ (Rect.block (s := S8x4x256x256) S1x4x256x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x1024x1024.size a
  hwx1_0 : ∀ i : grid1.Coords, EltTy.bits .i32 = 32 ∨ (Rect.block (s := S8x1024x1024) S1x256x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x256x256.size a ≤ S8x4x256x256.size a
  hwx1_1 : ∀ i : grid1.Coords, EltTy.bits .f32 = 32 ∨ (Rect.block (s := S8x4x256x256) S1x4x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x1024x256.size a ≤ S8x4x4096x256.size a
  hwx1_2 : ∀ i : grid1.Coords, EltTy.bits .f32 = 32 ∨ (Rect.block (s := S8x4x4096x256) S1x4x1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S256x1024_S256x256_S1024x256_0_0_1_1_n_n : DotDims S256x1024 S256x256 S1024x256 where
  lhsContracting := [0]
  rhsContracting := [0]
  lhsNonContracting := [1]
  rhsNonContracting := [1]
  lhsBatch := []
  rhsBatch := []
  wf := dot_S256x1024_S256x256_S1024x256_0_0_1_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x4x1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x4x1024x1024 : Shape := ⟨4, ![8, 4, 1024, 1024]⟩
abbrev S8x1024x1024 : Shape := ⟨3, ![8, 1024, 1024]⟩
abbrev S8x4x4096x256 : Shape := ⟨4, ![8, 4, 4096, 256]⟩
abbrev S_ : Shape := ⟨0, ![]⟩
abbrev S8x1x1024x1024 : Shape := ⟨4, ![8, 1, 1024, 1024]⟩
abbrev S4 : Shape := ⟨1, ![4]⟩
abbrev S1x4x1x1 : Shape := ⟨4, ![1, 4, 1, 1]⟩
abbrev S8x4x256x4x256x4 : Shape := ⟨6, ![8, 4, 256, 4, 256, 4]⟩
abbrev S8x4x256x256 : Shape := ⟨4, ![8, 4, 256, 256]⟩
abbrev S8x4x64x16x64x16 : Shape := ⟨6, ![8, 4, 64, 16, 64, 16]⟩
abbrev S8x4x16x16x64x64 : Shape := ⟨6, ![8, 4, 16, 16, 64, 64]⟩
abbrev S8x4x256x4096 : Shape := ⟨4, ![8, 4, 256, 4096]⟩
abbrev S8x4x16x16x16x16 : Shape := ⟨6, ![8, 4, 16, 16, 16, 16]⟩

abbrev nBuf : Space → Nat
  | .hbm => 46
  | .vmem => 0
  | .smem => 0
  | _ => 0

abbrev bufTy : (tb : Table) → Fin (tcTables nBuf tb) → BufTy
  | .hbm, ⟨0, _⟩ => ⟨S8x4x1024x1024, .f32⟩
  | .hbm, ⟨1, _⟩ => ⟨S8x1024x1024, .i32⟩
  | .hbm, ⟨2, _⟩ => ⟨S8x4x4096x256, .f32⟩
  | .hbm, ⟨3, _⟩ => ⟨S_, .f32⟩
  | .hbm, ⟨4, _⟩ => ⟨S8x1024x1024, .f32⟩
  | .hbm, ⟨5, _⟩ => ⟨S_, .f32⟩
  | .hbm, ⟨6, _⟩ => ⟨S8x1024x1024, .f32⟩
  | .hbm, ⟨7, _⟩ => ⟨S8x1024x1024, .f32⟩
  | .hbm, ⟨8, _⟩ => ⟨S8x1x1024x1024, .f32⟩
  | .hbm, ⟨9, _⟩ => ⟨S8x4x1024x1024, .f32⟩
  | .hbm, ⟨10, _⟩ => ⟨S8x4x1024x1024, .f32⟩
  | .hbm, ⟨11, _⟩ => ⟨S8x4x1024x1024, .f32⟩
  | .hbm, ⟨12, _⟩ => ⟨S_, .f32⟩
  | .hbm, ⟨13, _⟩ => ⟨S8x1024x1024, .f32⟩
  | .hbm, ⟨14, _⟩ => ⟨S8x1x1024x1024, .f32⟩
  | .hbm, ⟨15, _⟩ => ⟨S8x4x1024x1024, .f32⟩
  | .hbm, ⟨16, _⟩ => ⟨S8x4x1024x1024, .f32⟩
  | .hbm, ⟨17, _⟩ => ⟨S8x1x1024x1024, .i32⟩
  | .hbm, ⟨18, _⟩ => ⟨S4, .i32⟩
  | .hbm, ⟨19, _⟩ => ⟨S1x4x1x1, .i32⟩
  | .hbm, ⟨20, _⟩ => ⟨S8x4x1024x1024, .i32⟩
  | .hbm, ⟨21, _⟩ => ⟨S8x4x1024x1024, .i32⟩
  | .hbm, ⟨22, _⟩ => ⟨S8x4x1024x1024, .i1⟩
  | .hbm, ⟨23, _⟩ => ⟨S8x4x1024x1024, .f32⟩
  | .hbm, ⟨24, _⟩ => ⟨S8x4x256x4x256x4, .f32⟩
  | .hbm, ⟨25, _⟩ => ⟨S_, .f32⟩
  | .hbm, ⟨26, _⟩ => ⟨S8x4x256x256, .f32⟩
  | .hbm, ⟨27, _⟩ => ⟨S_, .f32⟩
  | .hbm, ⟨28, _⟩ => ⟨S8x4x256x256, .f32⟩
  | .hbm, ⟨29, _⟩ => ⟨S8x4x256x256, .f32⟩
  | .hbm, ⟨30, _⟩ => ⟨S8x4x64x16x64x16, .f32⟩
  | .hbm, ⟨31, _⟩ => ⟨S8x4x16x16x64x64, .f32⟩
  | .hbm, ⟨32, _⟩ => ⟨S8x4x256x4096, .f32⟩
  | .hbm, ⟨33, _⟩ => ⟨S8x4x16x16x16x16, .f32⟩
  | .hbm, ⟨34, _⟩ => ⟨S8x4x16x16x16x16, .f32⟩
  | .hbm, ⟨35, _⟩ => ⟨S8x4x256x256, .f32⟩
  | .hbm, ⟨36, _⟩ => ⟨S8x4x4096x256, .f32⟩
  | .hbm, ⟨37, _⟩ => ⟨S_, .f32⟩
  | .hbm, ⟨38, _⟩ => ⟨S8x4x4096x256, .f32⟩
  | .hbm, ⟨39, _⟩ => ⟨S8x4x4096x256, .f32⟩
  | .hbm, ⟨40, _⟩ => ⟨S8x4x4096x256, .f32⟩
  | .hbm, ⟨41, _⟩ => ⟨S8x4x4096x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  reducesTo_S8x4x1024x1024_S8x1024x1024_d1 : S8x4x1024x1024.ReducesTo [1] S8x1024x1024
  h_S_ : 0 < S_.numel
  bcast_S_S8x1024x1024 : S_.BroadcastsInDim S8x1024x1024 (![] : Fin 0 → Fin S8x1024x1024.rank)
  bcast_S8x1024x1024_S8x1x1024x1024_0_2_3 : S8x1024x1024.BroadcastsInDim S8x1x1024x1024 (![0, 2, 3] : Fin 3 → Fin S8x1x1024x1024.rank)
  bcast_S8x1x1024x1024_S8x4x1024x1024_0_1_2_3 : S8x1x1024x1024.BroadcastsInDim S8x4x1024x1024 (![0, 1, 2, 3] : Fin 4 → Fin S8x4x1024x1024.rank)
  bcast_S4_S1x4x1x1_1 : S4.BroadcastsInDim S1x4x1x1 (![1] : Fin 1 → Fin S1x4x1x1.rank)
  bcast_S1x4x1x1_S8x4x1024x1024_0_1_2_3 : S1x4x1x1.BroadcastsInDim S8x4x1024x1024 (![0, 1, 2, 3] : Fin 4 → Fin S8x4x1024x1024.rank)
  shapeCasts_S8x4x1024x1024_S8x4x256x4x256x4 : S8x4x1024x1024.ShapeCasts S8x4x256x4x256x4
  reducesTo_S8x4x256x4x256x4_S8x4x256x256_d3_5 : S8x4x256x4x256x4.ReducesTo [3, 5] S8x4x256x256
  bcast_S_S8x4x256x256 : S_.BroadcastsInDim S8x4x256x256 (![] : Fin 0 → Fin S8x4x256x256.rank)
  shapeCasts_S8x4x1024x1024_S8x4x64x16x64x16 : S8x4x1024x1024.ShapeCasts S8x4x64x16x64x16
  transposes_S8x4x64x16x64x16_S8x4x16x16x64x64_0_1_3_5_2_4 : S8x4x64x16x64x16.Transposes [0, 1, 3, 5, 2, 4] S8x4x16x16x64x64
  shapeCasts_S8x4x16x16x64x64_S8x4x256x4096 : S8x4x16x16x64x64.ShapeCasts S8x4x256x4096
  shapeCasts_S8x4x256x256_S8x4x16x16x16x16 : S8x4x256x256.ShapeCasts S8x4x16x16x16x16
  transposes_S8x4x16x16x16x16_S8x4x16x16x16x16_0_1_3_5_2_4 : S8x4x16x16x16x16.Transposes [0, 1, 3, 5, 2, 4] S8x4x16x16x16x16
  shapeCasts_S8x4x16x16x16x16_S8x4x256x256 : S8x4x16x16x16x16.ShapeCasts S8x4x256x256
  bcast_S_S8x4x4096x256 : S_.BroadcastsInDim S8x4x4096x256 (![] : Fin 0 → Fin S8x4x4096x256.rank)
  reducesTo_S8x4x4096x256_S_d0_1_2_3 : S8x4x4096x256.ReducesTo [0, 1, 2, 3] S_
  dot_S8x4x256x4096_S8x4x256x256_S8x4x4096x256_2_2_3_3_01_01_wf : DotDims.WF S8x4x256x4096 S8x4x256x256 S8x4x4096x256 [2] [2] [3] [3] [0, 1] [0, 1]

variable [Facts₀]

def dot_S8x4x256x4096_S8x4x256x256_S8x4x4096x256_2_2_3_3_01_01 : DotDims S8x4x256x4096 S8x4x256x256 S8x4x4096x256 where
  lhsContracting := [2]
  rhsContracting := [2]
  lhsNonContracting := [3]
  rhsNonContracting := [3]
  lhsBatch := [0, 1]
  rhsBatch := [0, 1]
  wf := dot_S8x4x256x4096_S8x4x256x256_S8x4x4096x256_2_2_3_3_01_01_wf

class Facts : Prop extends Facts₀ where

variable [Facts]
-- ==== Proof.Kernel.Region0.lean ====
/-
  The pooling call, at the buffer contents `V` it is entered from: what its body leaves in the staging buffer
  of the pooled map (four channel planes, one store each, each a function of the image's label block), the
  body's triple, the pipeline's proof data and the body obligation at every grid point.
-/
import proofs.«154266_j47399259079182_1_alg».proof.Proof.Gen.Kernel.Launch
import proofs.«154266_j47399259079182_1_alg».proof.Proof.Gen.Kernel.Skeleton
import proofs.«154266_j47399259079182_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the pooling call at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The label window's staging buffer holds the image's label block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole label block, and the four channel planes of the pooled block. -/
abbrev rIn0 : Rect S1x1024x1024 := Rect.unit (s := S1x1024x1024) ![0, 0, 0] S1x1024x1024.size inb_S1x1024x1024_S1x1024x1024_0_0_0
abbrev rCh0 : Rect S1x4x256x256 := Rect.unit (s := S1x4x256x256) ![0, 0, 0, 0] S1x1x256x256.size inb_S1x4x256x256_S1x1x256x256_0_0_0_0
abbrev rCh1 : Rect S1x4x256x256 := Rect.unit (s := S1x4x256x256) ![0, 1, 0, 0] S1x1x256x256.size inb_S1x4x256x256_S1x1x256x256_0_1_0_0
abbrev rCh2 : Rect S1x4x256x256 := Rect.unit (s := S1x4x256x256) ![0, 2, 0, 0] S1x1x256x256.size inb_S1x4x256x256_S1x1x256x256_0_2_0_0
abbrev rCh3 : Rect S1x4x256x256 := Rect.unit (s := S1x4x256x256) ![0, 3, 0, 0] S1x1x256x256.size inb_S1x4x256x256_S1x1x256x256_0_3_0_0

/-- The pooled block after the body, from the label block: the four stores as pieces, last first. -/
def out0_1 (x0 : Vec F S1x1024x1024 .i32) : Vec F S1x4x256x256 .f32 :=
  View.canon [⟨rCh3, k0_pay2 (F := F) (k0_pay3 (View.ld x0 rIn0))⟩, ⟨rCh2, k0_pay1 (k0_pay6 (View.ld x0 rIn0))⟩,
    ⟨rCh1, k0_pay5 (View.ld x0 rIn0)⟩, ⟨rCh0, k0_pay4 (View.ld x0 rIn0)⟩]

/-- The four planes tile the block. -/
theorem cover0_1 (p3 p2 p1 p0 : Vec F S1x1x256x256 .f32) (y : S1x4x256x256.Idx) :
    ∃ pc ∈ ([⟨rCh3, p3⟩, ⟨rCh2, p2⟩, ⟨rCh1, p1⟩, ⟨rCh0, p0⟩] : List (View.Piece (Elt F) S1x4x256x256 .f32)), y ∈ pc.1.set :=
  View.cover_of_tiled [⟨rCh3, p3⟩, ⟨rCh2, p2⟩, ⟨rCh1, p1⟩, ⟨rCh0, p0⟩] S1x1x256x256.size (by rfl) y

set_option maxHeartbeats 1000000 in
/-- The body on whole staging memrefs, the labels' at contents `x0` and the pooled map's at anything, runs to the
    continuation holding the labels' as they were and the pooled map's at `out0_1 x0`. -/
theorem sound_kernel0 (c : Dev nD) (E : Set ℕ) (i : grid0.Coords) (arg1 : Memref sig .tc .vmem S1x1024x1024 .i32) (harg1 : arg1.IsWhole)
    (arg2 : Memref sig .tc .vmem S1x4x256x256 .f32) (harg2 : arg2.IsWhole)
    (x0 : Vec F S1x1024x1024 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pool_kernel i arg1 harg1 arg2 harg2) K := by
  simp only [cc0__pool_kernel_eq_skeleton]; unfold cc0__pool_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _ _ _)

/-- The proof data of the pooling call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pooling call, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Kernel.Body1.lean ====
/-
  The main call's body on whole staging memrefs, in each of its three control cases (the first grid point,
  which resets the running scalar; the points between; the last, which writes the scaled scalar out): the
  running scalar after the body is one function `accStep` of the three input blocks and of what the first
  class pass reads of the scalar.
-/
import proofs.«154266_j47399259079182_1_alg».proof.Proof.Gen.Kernel.Launch
import proofs.«154266_j47399259079182_1_alg».proof.Proof.Gen.Kernel.Skeleton
import proofs.«154266_j47399259079182_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The band's whole label block, the four channel planes of the pooled block and of the attention block, the scalar. -/
abbrev rB : Rect S1x256x1024 := Rect.unit (s := S1x256x1024) ![0, 0, 0] S1x256x1024.size inb_S1x256x1024_S1x256x1024_0_0_0
abbrev rP0 : Rect S1x4x256x256 := Rect.unit (s := S1x4x256x256) ![0, 0, 0, 0] S1x1x256x256.size inb_S1x4x256x256_S1x1x256x256_0_0_0_0
abbrev rP1 : Rect S1x4x256x256 := Rect.unit (s := S1x4x256x256) ![0, 1, 0, 0] S1x1x256x256.size inb_S1x4x256x256_S1x1x256x256_0_1_0_0
abbrev rP2 : Rect S1x4x256x256 := Rect.unit (s := S1x4x256x256) ![0, 2, 0, 0] S1x1x256x256.size inb_S1x4x256x256_S1x1x256x256_0_2_0_0
abbrev rP3 : Rect S1x4x256x256 := Rect.unit (s := S1x4x256x256) ![0, 3, 0, 0] S1x1x256x256.size inb_S1x4x256x256_S1x1x256x256_0_3_0_0
abbrev rA0 : Rect S1x4x1024x256 := Rect.unit (s := S1x4x1024x256) ![0, 0, 0, 0] S1x1x1024x256.size inb_S1x4x1024x256_S1x1x1024x256_0_0_0_0
abbrev rA1 : Rect S1x4x1024x256 := Rect.unit (s := S1x4x1024x256) ![0, 1, 0, 0] S1x1x1024x256.size inb_S1x4x1024x256_S1x1x1024x256_0_1_0_0
abbrev rA2 : Rect S1x4x1024x256 := Rect.unit (s := S1x4x1024x256) ![0, 2, 0, 0] S1x1x1024x256.size inb_S1x4x1024x256_S1x1x1024x256_0_2_0_0
abbrev rA3 : Rect S1x4x1024x256 := Rect.unit (s := S1x4x1024x256) ![0, 3, 0, 0] S1x1x1024x256.size inb_S1x4x1024x256_S1x1x1024x256_0_3_0_0
abbrev rS : Rect S1x1 := Rect.unit (s := S1x1) ![0, 0] S1x1.size inb_S1x1_S1x1_0_0

theorem hzS : (![0, 0] : Fin 2 → Nat) = fun _ => 0 := by
  funext a; fin_cases a <;> rfl

/-- A rectangle at offset zero of the full extents holds every index. -/
theorem mem_unit_zero {S : Shape} {off : Fin S.rank → Nat} (h : off = fun _ => 0)
    (inb : ∀ a, off a + S.size a ≤ S.size a) (y : S.Idx) : y ∈ (Rect.unit off S.size inb).set := by
  subst h; show y ∈ (Rect.whole S).set; rw [Rect.set_whole]; exact Finset.mem_univ y

/-- The condition of the reset: both grid coordinates zero. -/
abbrev condFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the final store: both grid coordinates at their last value. -/
abbrev condLast (i : grid1.Coords) : Prop := k1_cond2 i = 1#1

/-- The running scalar after the four class passes, from the label block `x0`, the pooled block `x1`, the
    attention block `x2` and what the first pass reads of the scalar, `s0`. -/
def accStep (x0 : Vec F S1x256x1024 .i32) (x1 : Vec F S1x4x256x256 .f32) (x2 : Vec F S1x4x1024x256 .f32) (s0 : Vec F S1x1 .f32) : Vec F S1x1 .f32 :=
  k1_pay1 (k1_pay10 (F := F) (k1_pay4 (View.ld x0 rB))) (k1_pay11 (View.ld x1 rP3)) (constant S1024x256 .f32 0x00000000#32) (View.ld x2 rA3)
    (k1_pay9 (k1_pay8 (F := F) (k1_pay4 (View.ld x0 rB))) (View.ld x1 rP2) (View.ld x2 rA2)
      (k1_pay7 (k1_pay4 (View.ld x0 rB)) (View.ld x1 rP1) (View.ld x2 rA1)
        (k1_pay6 (k1_pay5 (View.ld x0 rB) (View.ld x1 rP0) (View.ld x2 rA0) s0))))

set_option maxHeartbeats 4000000 in
/-- A point between the first and the last: the scalar goes from `s` to `accStep … s`, the output buffer is not touched. -/
theorem sound_kernel1_mid (c : Dev nD) (E : Set ℕ) (i : grid1.Coords)
    (arg2 : Memref sig .tc .vmem S1x256x1024 .i32) (harg2 : arg2.IsWhole)
    (arg3 : Memref sig .tc .vmem S1x4x256x256 .f32) (harg3 : arg3.IsWhole)
    (arg4 : Memref sig .tc .vmem S1x4x1024x256 .f32) (harg4 : arg4.IsWhole)
    (arg5 : Memref sig .tc .vmem S1x1 .f32) (harg5 : arg5.IsWhole)
    (arg6 : Memref sig .tc .vmem S1x1 .f32) (harg6 : arg6.IsWhole)
    (hc0 : ¬ condFirst i) (hc1 : ¬ condLast i)
    (x0 : Vec F S1x256x1024 .i32) (x1 : Vec F S1x4x256x256 .f32) (x2 : Vec F S1x4x1024x256 .f32) (o : Vec F S1x1 .f32) (s : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (accStep x0 x1 x2 s)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr
  swap; · iexact H4
  ipureintro
  sl_unfold_words
  rw [View.read_writes_eq_canon _ _ _ (fun y => ⟨_, List.mem_cons_self, mem_unit_zero hzS inb_S1x1_S1x1_0_0 y⟩), View.canon_cons_unit_zero hzS]
  simp only [View.readCov_cons_toLoadRect, View.readAt_eq_ld, View.ld_unit_zero (S := S1x1) hzS]
  rfl

set_option maxHeartbeats 4000000 in
/-- The first point: the scalar, whatever it held, is reset and goes to `accStep … (the reset value)`. -/
theorem sound_kernel1_first (c : Dev nD) (E : Set ℕ) (i : grid1.Coords)
    (arg2 : Memref sig .tc .vmem S1x256x1024 .i32) (harg2 : arg2.IsWhole)
    (arg3 : Memref sig .tc .vmem S1x4x256x256 .f32) (harg3 : arg3.IsWhole)
    (arg4 : Memref sig .tc .vmem S1x4x1024x256 .f32) (harg4 : arg4.IsWhole)
    (arg5 : Memref sig .tc .vmem S1x1 .f32) (harg5 : arg5.IsWhole)
    (arg6 : Memref sig .tc .vmem S1x1 .f32) (harg6 : arg6.IsWhole)
    (hc0 : condFirst i) (hc1 : ¬ condLast i)
    (x0 : Vec F S1x256x1024 .i32) (x1 : Vec F S1x4x256x256 .f32) (x2 : Vec F S1x4x1024x256 .f32) (o : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (accStep x0 x1 x2 (k1_pay3 (F := F)))) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr
  swap; · iexact H4
  ipureintro
  sl_unfold_words
  rw [View.read_writes_eq_canon _ _ _ (fun y => ⟨_, List.mem_cons_self, mem_unit_zero hzS inb_S1x1_S1x1_0_0 y⟩), View.canon_cons_unit_zero hzS]
  simp only [View.readCov_cons_toLoadRect, View.readAt_eq_ld, View.ld_unit_zero (S := S1x1) hzS]
  rfl

set_option maxHeartbeats 4000000 in
/-- The last point: the scalar goes from `s` to `accStep … s`, and the output buffer, whatever it held, to that scaled. -/
theorem sound_kernel1_last (c : Dev nD) (E : Set ℕ) (i : grid1.Coords)
    (arg2 : Memref sig .tc .vmem S1x256x1024 .i32) (harg2 : arg2.IsWhole)
    (arg3 : Memref sig .tc .vmem S1x4x256x256 .f32) (harg3 : arg3.IsWhole)
    (arg4 : Memref sig .tc .vmem S1x4x1024x256 .f32) (harg4 : arg4.IsWhole)
    (arg5 : Memref sig .tc .vmem S1x1 .f32) (harg5 : arg5.IsWhole)
    (arg6 : Memref sig .tc .vmem S1x1 .f32) (harg6 : arg6.IsWhole)
    (hc0 : ¬ condFirst i) (hc1 : condLast i)
    (x0 : Vec F S1x256x1024 .i32) (x1 : Vec F S1x4x256x256 .f32) (x2 : Vec F S1x4x1024x256 .f32) (s : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 (accStep x0 x1 x2 s)) ∗ owns (c : Thread nD τ) arg6 fullShare (accStep x0 x1 x2 s)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]
  · iexists _; isplitr
    swap; · iexact H3
    ipureintro
    sl_unfold_words
    rw [View.read_writes_eq_canon _ _ _ (fun y => ⟨_, List.mem_cons_self, mem_unit_zero hzS inb_S1x1_S1x1_0_0 y⟩), View.canon_cons_unit_zero hzS]
    simp only [View.readCov_cons_toLoadRect, View.readAt_eq_ld, View.ld_unit_zero (S := S1x1) hzS]
    rfl
  iexists _; isplitr
  swap; · iexact H4
  ipureintro
  sl_unfold_words
  rw [View.read_writes_eq_canon _ _ _ (fun y => ⟨_, List.mem_cons_self, mem_unit_zero hzS inb_S1x1_S1x1_0_0 y⟩), View.canon_cons_unit_zero hzS]
  simp only [View.readCov_cons_toLoadRect, View.readAt_eq_ld, View.ld_unit_zero (S := S1x1) hzS]
  rfl

end Cert.Kernel.Frame

end
-- ==== Proof.Kernel.Region1.lean ====
/-
  The main call, at the buffer contents `V` it is entered from: the running scalar after each grid point
  (`accAt`, by recursion on the point), the invariant that carries it in the call's scratch buffer, the
  pipeline's proof data and the body obligation at every grid point. The output window is written at the
  last point only and is idle before.
-/
import proofs.«154266_j47399259079182_1_alg».proof.Proof.Kernel.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the main call at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The reset is taken at the first point only, the final store at the last only: decided over the 32 points. -/
theorem hcondFirst : ∀ t : Fin cfg1.N, condFirst (grid1.coords t) ↔ t.val = 0 :=
  (by decide +kernel : ∀ t : Fin grid1.N, condFirst (grid1.coords t) ↔ t.val = 0)
theorem hcondLast : ∀ t : Fin cfg1.N, condLast (grid1.coords t) ↔ t.val = 31 :=
  (by decide +kernel : ∀ t : Fin grid1.N, condLast (grid1.coords t) ↔ t.val = 31)

/-- Where the output window is idle: everywhere but the last point, and there it is not written back. -/
theorem idleAt1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem liveAt1_3 : ∀ t : Fin cfg1.N, condLast (grid1.coords t) → cfg1.idle 3 (grid1.coords t) = false := by decide +kernel

/-- The scratch buffer of the running scalar. -/
abbrev scM1 : Memref sig .tc .vmem S1x1 .f32 := Memref.whole cc1_scratch0

/-- The running scalar after the points below `n`: the reset value, then one `accStep` per point over the point's
    blocks. (The first point resets before it accumulates, so starting from the reset value is the same.) -/
def accAt (c : Dev nD) : ℕ → Vec F S1x1 .f32
  | 0 => k1_pay3 (F := F)
  | n + 1 => if h : n < cfg1.N then accStep (iblk1 V c 0 ⟨n, h⟩) (iblk1 V c 1 ⟨n, h⟩) (iblk1 V c 2 ⟨n, h⟩) (accAt c n) else accAt c n

theorem accAt_succ (c : Dev nD) (t : Fin cfg1.N) :
    accAt V c (t.val + 1) = accStep (iblk1 V c 0 t) (iblk1 V c 1 t) (iblk1 V c 2 t) (accAt V c t.val) := by
  rw [accAt, dif_pos t.isLt]

/-- The other call's staging buffers, at some contents each: the scoped buffers of the core the main call never touches. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The class invariant (the scoped rest at some contents, the generator register at some state) with the scratch
    buffer taken out as an owned memref. -/
theorem PhiA1_split (c : Dev nD) :
    (Pipeline.ΦA spec1 c : sProp 𝕄) ⊢ iprop(otherScoped (F := F) c ∗ (∃ d, owns (c : Thread nD τ) scM1 fullShare d) ∗ (∃ r, prngReg c r)) := by
  unfold Pipeline.ΦA otherScoped; rw [scopedRest1_eq]; simp only [scM1, owns_whole]
  iintro ⟨⟨Ha, Hb, Hc, Hd, Hs⟩, Hp⟩
  isplitl [Ha Hb Hc Hd]
  · isplitl [Ha]; · iexact Ha
    isplitl [Hb]; · iexact Hb
    isplitl [Hc]; · iexact Hc
    iexact Hd
  isplitl [Hs]; · iexact Hs
  iexact Hp

theorem PhiA1_join (c : Dev nD) :
    iprop(otherScoped (F := F) c ∗ (∃ d, owns (c : Thread nD τ) scM1 fullShare d) ∗ (∃ r, prngReg c r)) ⊢ (Pipeline.ΦA spec1 c : sProp 𝕄) := by
  unfold Pipeline.ΦA otherScoped; rw [scopedRest1_eq]; simp only [scM1, owns_whole]
  iintro ⟨⟨Ha, Hb, Hc, Hd⟩, Hs, Hp⟩
  isplitr [Hp]
  · isplitl [Ha]; · iexact Ha
    isplitl [Hb]; · iexact Hb
    isplitl [Hc]; · iexact Hc
    isplitl [Hd]; · iexact Hd
    iexact Hs
  iexact Hp

/-- The invariant before position `n`: the class's before the first point; afterwards the scratch at the running scalar. -/
def Phi1 (c : Dev nD) : (n : ℕ) → sProp 𝕄
  | 0 => Pipeline.ΦA spec1 c
  | n + 1 => iprop(otherScoped (F := F) c ∗ owns (c : Thread nD τ) scM1 fullShare (accAt V c (n + 1)) ∗ (∃ r, prngReg c r))

theorem Phi1_pos (c : Dev nD) (n : ℕ) (hz : n ≠ 0) :
    Phi1 V c n = iprop(otherScoped (F := F) c ∗ owns (c : Thread nD τ) scM1 fullShare (accAt V c n) ∗ (∃ r, prngReg c r)) := by
  cases n with
  | zero => exact absurd rfl hz
  | succ n => rfl

/-- The proof data of the main call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay2 (accAt V c (t.val + 1))
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay2 (accAt V c (t.val + 1)) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    leaves1_0, leaves1_1, leaves1_2]
  have hN : t.val < 32 := lt_of_lt_of_eq t.isLt (show cfg1.N = 32 from N_1)
  by_cases h0 : t.val = 0
  · -- the first point
    have hc0 : condFirst (grid1.coords t) := (hcondFirst t).mpr h0
    have hc1 : ¬ condLast (grid1.coords t) := fun h => by have := (hcondLast t).mp h; omega
    rw [Dat.leavesExact_idle (dat1 V c) 3 t (idleAt1_3 t hc1) (noFlush1_3 t hc1)]
    rw [show Phi1 V c (t.val + 1) = iprop(otherScoped (F := F) c ∗ owns (c : Thread nD τ) scM1 fullShare (accAt V c (t.val + 1)) ∗ (∃ r, prngReg c r)) from rfl,
      accAt_succ, h0, show Phi1 V c 0 = Pipeline.ΦA spec1 c from rfl, show accAt V c 0 = k1_pay3 (F := F) from rfl]
    iintro ⟨HΦ, Ho, ⟨%d0, H0⟩, ⟨%d1, H1⟩, ⟨%d2, H2⟩, ⟨%d3, H3⟩⟩
    ihave HΦ' := PhiA1_split c $$ HΦ
    icases HΦ' with ⟨Hoth, HS, Hg⟩
    iapply (sound_kernel1_first c Set.univ _ _ _ _ _ _ _ _ _ _ _ hc0 hc1 (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    iexists _; iexact H3
  · rw [Phi1_pos V c t.val h0,
      show Phi1 V c (t.val + 1) = iprop(otherScoped (F := F) c ∗ owns (c : Thread nD τ) scM1 fullShare (accAt V c (t.val + 1)) ∗ (∃ r, prngReg c r)) from rfl,
      accAt_succ]
    have hc0 : ¬ condFirst (grid1.coords t) := fun h => h0 ((hcondFirst t).mp h)
    by_cases h1 : t.val = 31
    · -- the last point
      have hc1 : condLast (grid1.coords t) := (hcondLast t).mpr h1
      rw [show (dat1 V c).leavesExact 3 t = owns (c : Thread nD τ) (st1_3 t) fullShare ((dat1 V c).after 3 t) from by
        unfold Dat.leavesExact; rw [liveAt1_3 t hc1], after1_3, accAt_succ]
      iintro ⟨⟨Hoth, HS, Hg⟩, Ho, ⟨%d0, H0⟩, ⟨%d1, H1⟩, ⟨%d2, H2⟩, ⟨%d3, H3⟩⟩
      iapply (sound_kernel1_last c Set.univ _ _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexact H3
    · -- a point between
      have hc1 : ¬ condLast (grid1.coords t) := fun h => h1 ((hcondLast t).mp h)
      rw [Dat.leavesExact_idle (dat1 V c) 3 t (idleAt1_3 t hc1) (noFlush1_3 t hc1)]
      iintro ⟨⟨Hoth, HS, Hg⟩, Ho, ⟨%d0, H0⟩, ⟨%d1, H1⟩, ⟨%d2, H2⟩, ⟨%d3, H3⟩⟩
      iapply (sound_kernel1_mid c Set.univ _ _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3

/-- The body obligation of the main call, at every point. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first point, -/
theorem hin1 (c : Dev nD) : Pipeline.ΦA spec1 c ⊢ (dat1 V c).Φ 0 := .rfl

/-- and after the last point the invariant gives it back: the running scalar's value is forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl,
    Phi1_pos V c _ (by rw [Fin.val_last]; have : cfg1.N = 32 := N_1; omega)]
  iintro ⟨Hoth, HS, Hg⟩
  iapply PhiA1_join c
  isplitl [Hoth]; · iexact Hoth
  isplitl [HS]; · iexists _; iexact HS
  iexact Hg

end Cert.Kernel.Frame

end
-- ==== Proof.Kernel.Run.lean ====
/-
  The whole program run: the buffer contents at each boundary of @main (the launch memory; after the pooling
  call, its result array at what its write-backs leave; after the main call likewise; after the final reshape),
  every argument array read back through them to its launch contents, the two calls as segments over the
  thread state "every unscoped buffer at the boundary's contents, the generator register at some state,
  nothing owed", and the launch: every weakly fair execution terminates with every unscoped buffer at the last
  boundary's contents.
-/
import proofs.«154266_j47399259079182_1_alg».proof.Proof.Kernel.Region0
import proofs.«154266_j47399259079182_1_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references (what the pooling call's proof data take). -/
abbrev V1 : (c : Dev nD) → (b : Ref sig .tc) → Buf (Elt F) ((c : Thread nD τ).loc b) := fun c b => W0 m ρ c b
/-- At the pooling call's exit: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the main call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the final reshape. -/
abbrev W4 : Dev nD → Valuation τ sig (Elt F) := fun c => StableHlo.after hostOps2 (W3 m ρ c)

/-- The reshape writes the scalar result only. -/
theorem W4_of_ne (c : Dev nD) (b : Ref sig .tc) (hb : b ≠ main_v2) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The arguments end as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W0 m ρ c (Proc.devRef .tc main_arg0) := W2_of_ne m ρ c main_arg0 (by decide)
    _ = m ((c : Thread nD τ).loc main_arg0) := rfl
theorem W2_main_arg1 (c : Dev nD) : W2 m ρ c (Proc.devRef .tc main_arg1) = m ((c : Thread nD τ).loc main_arg1) :=
  (W2_arr m ρ c 0).trans (((dat0 (V1 m ρ) c).arrAt_in 0 rfl _).trans (A_eq0 (V1 m ρ) c 0))
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (W3_arr m ρ c 0).trans (((dat1 (V2 m ρ) c).arrAt_in 0 rfl _).trans (A_eq1 (V2 m ρ) c 0))
    _ = m ((c : Thread nD τ).loc main_arg1) := W2_main_arg1 m ρ c
theorem W2_main_arg2 (c : Dev nD) : W2 m ρ c (Proc.devRef .tc main_arg2) = m ((c : Thread nD τ).loc main_arg2) :=
  (W2_of_ne m ρ c main_arg2 (by decide)).trans rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 2).trans (((dat1 (V2 m ρ) c).arrAt_in 2 rfl _).trans (A_eq1 (V2 m ρ) c 2))
    _ = m ((c : Thread nD τ).loc main_arg2) := W2_main_arg2 m ρ c

/-- No call has a prefetched table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The pooling call as a segment: entered from every unscoped buffer at `W0`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main call as a segment: entered from every unscoped buffer at `W2`, left at `W3`; its invariant is entered
    from the class's (the scratch at anything) and gives the class's back (the running scalar forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's three segments in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: every weakly fair execution of @main from `m` with zero counters terminates, nothing faulting, and every
    final state has every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The result and the arguments after the run: the scalar result at the last boundary's contents. -/
theorem run_result : θ_run defs (onTc (τ := τ) (main (F := F))) ⟨m, fun _ => 0, ρ⟩ (fun r => ∀ c : Dev nD,
      r.2.mem ((c.tc : Thread nD τ).loc main_v2) = W4 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v2 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Frame

end
-- ==== Proof.KernelIdeal.Region0.lean ====
/-
  The pooling call, at the buffer contents `V` it is entered from: what its body leaves in the staging buffer
  of the pooled map (four channel planes, one store each, each a function of the image's label block), the
  body's triple, the pipeline's proof data and the body obligation at every grid point.
-/
import proofs.«154266_j47399259079182_1_alg».proof.Proof.Gen.KernelIdeal.Launch
import proofs.«154266_j47399259079182_1_alg».proof.Proof.Gen.KernelIdeal.Skeleton
import proofs.«154266_j47399259079182_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the pooling call at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The label window's staging buffer holds the image's label block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole label block, and the four channel planes of the pooled block. -/
abbrev rIn0 : Rect S1x1024x1024 := Rect.unit (s := S1x1024x1024) ![0, 0, 0] S1x1024x1024.size inb_S1x1024x1024_S1x1024x1024_0_0_0
abbrev rCh0 : Rect S1x4x256x256 := Rect.unit (s := S1x4x256x256) ![0, 0, 0, 0] S1x1x256x256.size inb_S1x4x256x256_S1x1x256x256_0_0_0_0
abbrev rCh1 : Rect S1x4x256x256 := Rect.unit (s := S1x4x256x256) ![0, 1, 0, 0] S1x1x256x256.size inb_S1x4x256x256_S1x1x256x256_0_1_0_0
abbrev rCh2 : Rect S1x4x256x256 := Rect.unit (s := S1x4x256x256) ![0, 2, 0, 0] S1x1x256x256.size inb_S1x4x256x256_S1x1x256x256_0_2_0_0
abbrev rCh3 : Rect S1x4x256x256 := Rect.unit (s := S1x4x256x256) ![0, 3, 0, 0] S1x1x256x256.size inb_S1x4x256x256_S1x1x256x256_0_3_0_0

/-- The pooled block after the body, from the label block: the four stores as pieces, last first. -/
def out0_1 (x0 : Vec F S1x1024x1024 .i32) : Vec F S1x4x256x256 .f32 :=
  View.canon [⟨rCh3, k0_pay2 (F := F) (k0_pay3 (View.ld x0 rIn0))⟩, ⟨rCh2, k0_pay1 (k0_pay6 (View.ld x0 rIn0))⟩,
    ⟨rCh1, k0_pay5 (View.ld x0 rIn0)⟩, ⟨rCh0, k0_pay4 (View.ld x0 rIn0)⟩]

/-- The four planes tile the block. -/
theorem cover0_1 (p3 p2 p1 p0 : Vec F S1x1x256x256 .f32) (y : S1x4x256x256.Idx) :
    ∃ pc ∈ ([⟨rCh3, p3⟩, ⟨rCh2, p2⟩, ⟨rCh1, p1⟩, ⟨rCh0, p0⟩] : List (View.Piece (Elt F) S1x4x256x256 .f32)), y ∈ pc.1.set :=
  View.cover_of_tiled [⟨rCh3, p3⟩, ⟨rCh2, p2⟩, ⟨rCh1, p1⟩, ⟨rCh0, p0⟩] S1x1x256x256.size (by rfl) y

set_option maxHeartbeats 1000000 in
/-- The body on whole staging memrefs, the labels' at contents `x0` and the pooled map's at anything, runs to the
    continuation holding the labels' as they were and the pooled map's at `out0_1 x0`. -/
theorem sound_kernel0 (c : Dev nD) (E : Set ℕ) (i : grid0.Coords) (arg1 : Memref sig .tc .vmem S1x1024x1024 .i32) (harg1 : arg1.IsWhole)
    (arg2 : Memref sig .tc .vmem S1x4x256x256 .f32) (harg2 : arg2.IsWhole)
    (x0 : Vec F S1x1024x1024 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pool_kernel i arg1 harg1 arg2 harg2) K := by
  simp only [cc0__pool_kernel_eq_skeleton]; unfold cc0__pool_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _ _ _)

/-- The proof data of the pooling call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pooling call, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdeal.Body1.lean ====
/-
  The main call's body on whole staging memrefs, in each of its three control cases (the first grid point,
  which resets the running scalar; the points between; the last, which writes the scaled scalar out): the
  running scalar after the body is one function `accStep` of the three input blocks and of what the first
  class pass reads of the scalar.
-/
import proofs.«154266_j47399259079182_1_alg».proof.Proof.Gen.KernelIdeal.Launch
import proofs.«154266_j47399259079182_1_alg».proof.Proof.Gen.KernelIdeal.Skeleton
import proofs.«154266_j47399259079182_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The band's whole label block, the four channel planes of the pooled block and of the attention block, the scalar. -/
abbrev rB : Rect S1x256x1024 := Rect.unit (s := S1x256x1024) ![0, 0, 0] S1x256x1024.size inb_S1x256x1024_S1x256x1024_0_0_0
abbrev rP0 : Rect S1x4x256x256 := Rect.unit (s := S1x4x256x256) ![0, 0, 0, 0] S1x1x256x256.size inb_S1x4x256x256_S1x1x256x256_0_0_0_0
abbrev rP1 : Rect S1x4x256x256 := Rect.unit (s := S1x4x256x256) ![0, 1, 0, 0] S1x1x256x256.size inb_S1x4x256x256_S1x1x256x256_0_1_0_0
abbrev rP2 : Rect S1x4x256x256 := Rect.unit (s := S1x4x256x256) ![0, 2, 0, 0] S1x1x256x256.size inb_S1x4x256x256_S1x1x256x256_0_2_0_0
abbrev rP3 : Rect S1x4x256x256 := Rect.unit (s := S1x4x256x256) ![0, 3, 0, 0] S1x1x256x256.size inb_S1x4x256x256_S1x1x256x256_0_3_0_0
abbrev rA0 : Rect S1x4x1024x256 := Rect.unit (s := S1x4x1024x256) ![0, 0, 0, 0] S1x1x1024x256.size inb_S1x4x1024x256_S1x1x1024x256_0_0_0_0
abbrev rA1 : Rect S1x4x1024x256 := Rect.unit (s := S1x4x1024x256) ![0, 1, 0, 0] S1x1x1024x256.size inb_S1x4x1024x256_S1x1x1024x256_0_1_0_0
abbrev rA2 : Rect S1x4x1024x256 := Rect.unit (s := S1x4x1024x256) ![0, 2, 0, 0] S1x1x1024x256.size inb_S1x4x1024x256_S1x1x1024x256_0_2_0_0
abbrev rA3 : Rect S1x4x1024x256 := Rect.unit (s := S1x4x1024x256) ![0, 3, 0, 0] S1x1x1024x256.size inb_S1x4x1024x256_S1x1x1024x256_0_3_0_0
abbrev rS : Rect S1x1 := Rect.unit (s := S1x1) ![0, 0] S1x1.size inb_S1x1_S1x1_0_0

theorem hzS : (![0, 0] : Fin 2 → Nat) = fun _ => 0 := by
  funext a; fin_cases a <;> rfl

/-- A rectangle at offset zero of the full extents holds every index. -/
theorem mem_unit_zero {S : Shape} {off : Fin S.rank → Nat} (h : off = fun _ => 0)
    (inb : ∀ a, off a + S.size a ≤ S.size a) (y : S.Idx) : y ∈ (Rect.unit off S.size inb).set := by
  subst h; show y ∈ (Rect.whole S).set; rw [Rect.set_whole]; exact Finset.mem_univ y

/-- The condition of the reset: both grid coordinates zero. -/
abbrev condFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the final store: both grid coordinates at their last value. -/
abbrev condLast (i : grid1.Coords) : Prop := k1_cond2 i = 1#1

/-- The running scalar after the four class passes, from the label block `x0`, the pooled block `x1`, the
    attention block `x2` and what the first pass reads of the scalar, `s0`. -/
def accStep (x0 : Vec F S1x256x1024 .i32) (x1 : Vec F S1x4x256x256 .f32) (x2 : Vec F S1x4x1024x256 .f32) (s0 : Vec F S1x1 .f32) : Vec F S1x1 .f32 :=
  k1_pay1 (k1_pay10 (F := F) (k1_pay4 (View.ld x0 rB))) (k1_pay11 (View.ld x1 rP3)) (constant S1024x256 .f32 0x00000000#32) (View.ld x2 rA3)
    (k1_pay9 (k1_pay8 (F := F) (k1_pay4 (View.ld x0 rB))) (View.ld x1 rP2) (View.ld x2 rA2)
      (k1_pay7 (k1_pay4 (View.ld x0 rB)) (View.ld x1 rP1) (View.ld x2 rA1)
        (k1_pay6 (k1_pay5 (View.ld x0 rB) (View.ld x1 rP0) (View.ld x2 rA0) s0))))

set_option maxHeartbeats 4000000 in
/-- A point between the first and the last: the scalar goes from `s` to `accStep … s`, the output buffer is not touched. -/
theorem sound_kernel1_mid (c : Dev nD) (E : Set ℕ) (i : grid1.Coords)
    (arg2 : Memref sig .tc .vmem S1x256x1024 .i32) (harg2 : arg2.IsWhole)
    (arg3 : Memref sig .tc .vmem S1x4x256x256 .f32) (harg3 : arg3.IsWhole)
    (arg4 : Memref sig .tc .vmem S1x4x1024x256 .f32) (harg4 : arg4.IsWhole)
    (arg5 : Memref sig .tc .vmem S1x1 .f32) (harg5 : arg5.IsWhole)
    (arg6 : Memref sig .tc .vmem S1x1 .f32) (harg6 : arg6.IsWhole)
    (hc0 : ¬ condFirst i) (hc1 : ¬ condLast i)
    (x0 : Vec F S1x256x1024 .i32) (x1 : Vec F S1x4x256x256 .f32) (x2 : Vec F S1x4x1024x256 .f32) (o : Vec F S1x1 .f32) (s : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (accStep x0 x1 x2 s)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr
  swap; · iexact H4
  ipureintro
  sl_unfold_words
  rw [View.read_writes_eq_canon _ _ _ (fun y => ⟨_, List.mem_cons_self, mem_unit_zero hzS inb_S1x1_S1x1_0_0 y⟩), View.canon_cons_unit_zero hzS]
  simp only [View.readCov_cons_toLoadRect, View.readAt_eq_ld, View.ld_unit_zero (S := S1x1) hzS]
  rfl

set_option maxHeartbeats 4000000 in
/-- The first point: the scalar, whatever it held, is reset and goes to `accStep … (the reset value)`. -/
theorem sound_kernel1_first (c : Dev nD) (E : Set ℕ) (i : grid1.Coords)
    (arg2 : Memref sig .tc .vmem S1x256x1024 .i32) (harg2 : arg2.IsWhole)
    (arg3 : Memref sig .tc .vmem S1x4x256x256 .f32) (harg3 : arg3.IsWhole)
    (arg4 : Memref sig .tc .vmem S1x4x1024x256 .f32) (harg4 : arg4.IsWhole)
    (arg5 : Memref sig .tc .vmem S1x1 .f32) (harg5 : arg5.IsWhole)
    (arg6 : Memref sig .tc .vmem S1x1 .f32) (harg6 : arg6.IsWhole)
    (hc0 : condFirst i) (hc1 : ¬ condLast i)
    (x0 : Vec F S1x256x1024 .i32) (x1 : Vec F S1x4x256x256 .f32) (x2 : Vec F S1x4x1024x256 .f32) (o : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare (accStep x0 x1 x2 (k1_pay3 (F := F)))) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr
  swap; · iexact H4
  ipureintro
  sl_unfold_words
  rw [View.read_writes_eq_canon _ _ _ (fun y => ⟨_, List.mem_cons_self, mem_unit_zero hzS inb_S1x1_S1x1_0_0 y⟩), View.canon_cons_unit_zero hzS]
  simp only [View.readCov_cons_toLoadRect, View.readAt_eq_ld, View.ld_unit_zero (S := S1x1) hzS]
  rfl

set_option maxHeartbeats 4000000 in
/-- The last point: the scalar goes from `s` to `accStep … s`, and the output buffer, whatever it held, to that scaled. -/
theorem sound_kernel1_last (c : Dev nD) (E : Set ℕ) (i : grid1.Coords)
    (arg2 : Memref sig .tc .vmem S1x256x1024 .i32) (harg2 : arg2.IsWhole)
    (arg3 : Memref sig .tc .vmem S1x4x256x256 .f32) (harg3 : arg3.IsWhole)
    (arg4 : Memref sig .tc .vmem S1x4x1024x256 .f32) (harg4 : arg4.IsWhole)
    (arg5 : Memref sig .tc .vmem S1x1 .f32) (harg5 : arg5.IsWhole)
    (arg6 : Memref sig .tc .vmem S1x1 .f32) (harg6 : arg6.IsWhole)
    (hc0 : ¬ condFirst i) (hc1 : condLast i)
    (x0 : Vec F S1x256x1024 .i32) (x1 : Vec F S1x4x256x256 .f32) (x2 : Vec F S1x4x1024x256 .f32) (s : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 (accStep x0 x1 x2 s)) ∗ owns (c : Thread nD τ) arg6 fullShare (accStep x0 x1 x2 s)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]
  · iexists _; isplitr
    swap; · iexact H3
    ipureintro
    sl_unfold_words
    rw [View.read_writes_eq_canon _ _ _ (fun y => ⟨_, List.mem_cons_self, mem_unit_zero hzS inb_S1x1_S1x1_0_0 y⟩), View.canon_cons_unit_zero hzS]
    simp only [View.readCov_cons_toLoadRect, View.readAt_eq_ld, View.ld_unit_zero (S := S1x1) hzS]
    rfl
  iexists _; isplitr
  swap; · iexact H4
  ipureintro
  sl_unfold_words
  rw [View.read_writes_eq_canon _ _ _ (fun y => ⟨_, List.mem_cons_self, mem_unit_zero hzS inb_S1x1_S1x1_0_0 y⟩), View.canon_cons_unit_zero hzS]
  simp only [View.readCov_cons_toLoadRect, View.readAt_eq_ld, View.ld_unit_zero (S := S1x1) hzS]
  rfl

end Cert.KernelIdeal.Frame

end
-- ==== Proof.KernelIdeal.Region1.lean ====
/-
  The main call, at the buffer contents `V` it is entered from: the running scalar after each grid point
  (`accAt`, by recursion on the point), the invariant that carries it in the call's scratch buffer, the
  pipeline's proof data and the body obligation at every grid point. The output window is written at the
  last point only and is idle before.
-/
import proofs.«154266_j47399259079182_1_alg».proof.Proof.KernelIdeal.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the main call at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The reset is taken at the first point only, the final store at the last only: decided over the 32 points. -/
theorem hcondFirst : ∀ t : Fin cfg1.N, condFirst (grid1.coords t) ↔ t.val = 0 :=
  (by decide +kernel : ∀ t : Fin grid1.N, condFirst (grid1.coords t) ↔ t.val = 0)
theorem hcondLast : ∀ t : Fin cfg1.N, condLast (grid1.coords t) ↔ t.val = 31 :=
  (by decide +kernel : ∀ t : Fin grid1.N, condLast (grid1.coords t) ↔ t.val = 31)

/-- Where the output window is idle: everywhere but the last point, and there it is not written back. -/
theorem idleAt1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem liveAt1_3 : ∀ t : Fin cfg1.N, condLast (grid1.coords t) → cfg1.idle 3 (grid1.coords t) = false := by decide +kernel

/-- The scratch buffer of the running scalar. -/
abbrev scM1 : Memref sig .tc .vmem S1x1 .f32 := Memref.whole cc1_scratch0

/-- The running scalar after the points below `n`: the reset value, then one `accStep` per point over the point's
    blocks. (The first point resets before it accumulates, so starting from the reset value is the same.) -/
def accAt (c : Dev nD) : ℕ → Vec F S1x1 .f32
  | 0 => k1_pay3 (F := F)
  | n + 1 => if h : n < cfg1.N then accStep (iblk1 V c 0 ⟨n, h⟩) (iblk1 V c 1 ⟨n, h⟩) (iblk1 V c 2 ⟨n, h⟩) (accAt c n) else accAt c n

theorem accAt_succ (c : Dev nD) (t : Fin cfg1.N) :
    accAt V c (t.val + 1) = accStep (iblk1 V c 0 t) (iblk1 V c 1 t) (iblk1 V c 2 t) (accAt V c t.val) := by
  rw [accAt, dif_pos t.isLt]

/-- The other call's staging buffers, at some contents each: the scoped buffers of the core the main call never touches. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The class invariant (the scoped rest at some contents, the generator register at some state) with the scratch
    buffer taken out as an owned memref. -/
theorem PhiA1_split (c : Dev nD) :
    (Pipeline.ΦA spec1 c : sProp 𝕄) ⊢ iprop(otherScoped (F := F) c ∗ (∃ d, owns (c : Thread nD τ) scM1 fullShare d) ∗ (∃ r, prngReg c r)) := by
  unfold Pipeline.ΦA otherScoped; rw [scopedRest1_eq]; simp only [scM1, owns_whole]
  iintro ⟨⟨Ha, Hb, Hc, Hd, Hs⟩, Hp⟩
  isplitl [Ha Hb Hc Hd]
  · isplitl [Ha]; · iexact Ha
    isplitl [Hb]; · iexact Hb
    isplitl [Hc]; · iexact Hc
    iexact Hd
  isplitl [Hs]; · iexact Hs
  iexact Hp

theorem PhiA1_join (c : Dev nD) :
    iprop(otherScoped (F := F) c ∗ (∃ d, owns (c : Thread nD τ) scM1 fullShare d) ∗ (∃ r, prngReg c r)) ⊢ (Pipeline.ΦA spec1 c : sProp 𝕄) := by
  unfold Pipeline.ΦA otherScoped; rw [scopedRest1_eq]; simp only [scM1, owns_whole]
  iintro ⟨⟨Ha, Hb, Hc, Hd⟩, Hs, Hp⟩
  isplitr [Hp]
  · isplitl [Ha]; · iexact Ha
    isplitl [Hb]; · iexact Hb
    isplitl [Hc]; · iexact Hc
    isplitl [Hd]; · iexact Hd
    iexact Hs
  iexact Hp

/-- The invariant before position `n`: the class's before the first point; afterwards the scratch at the running scalar. -/
def Phi1 (c : Dev nD) : (n : ℕ) → sProp 𝕄
  | 0 => Pipeline.ΦA spec1 c
  | n + 1 => iprop(otherScoped (F := F) c ∗ owns (c : Thread nD τ) scM1 fullShare (accAt V c (n + 1)) ∗ (∃ r, prngReg c r))

theorem Phi1_pos (c : Dev nD) (n : ℕ) (hz : n ≠ 0) :
    Phi1 V c n = iprop(otherScoped (F := F) c ∗ owns (c : Thread nD τ) scM1 fullShare (accAt V c n) ∗ (∃ r, prngReg c r)) := by
  cases n with
  | zero => exact absurd rfl hz
  | succ n => rfl

/-- The proof data of the main call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay2 (accAt V c (t.val + 1))
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay2 (accAt V c (t.val + 1)) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    leaves1_0, leaves1_1, leaves1_2]
  have hN : t.val < 32 := lt_of_lt_of_eq t.isLt (show cfg1.N = 32 from N_1)
  by_cases h0 : t.val = 0
  · -- the first point
    have hc0 : condFirst (grid1.coords t) := (hcondFirst t).mpr h0
    have hc1 : ¬ condLast (grid1.coords t) := fun h => by have := (hcondLast t).mp h; omega
    rw [Dat.leavesExact_idle (dat1 V c) 3 t (idleAt1_3 t hc1) (noFlush1_3 t hc1)]
    rw [show Phi1 V c (t.val + 1) = iprop(otherScoped (F := F) c ∗ owns (c : Thread nD τ) scM1 fullShare (accAt V c (t.val + 1)) ∗ (∃ r, prngReg c r)) from rfl,
      accAt_succ, h0, show Phi1 V c 0 = Pipeline.ΦA spec1 c from rfl, show accAt V c 0 = k1_pay3 (F := F) from rfl]
    iintro ⟨HΦ, Ho, ⟨%d0, H0⟩, ⟨%d1, H1⟩, ⟨%d2, H2⟩, ⟨%d3, H3⟩⟩
    ihave HΦ' := PhiA1_split c $$ HΦ
    icases HΦ' with ⟨Hoth, HS, Hg⟩
    iapply (sound_kernel1_first c Set.univ _ _ _ _ _ _ _ _ _ _ _ hc0 hc1 (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    iexists _; iexact H3
  · rw [Phi1_pos V c t.val h0,
      show Phi1 V c (t.val + 1) = iprop(otherScoped (F := F) c ∗ owns (c : Thread nD τ) scM1 fullShare (accAt V c (t.val + 1)) ∗ (∃ r, prngReg c r)) from rfl,
      accAt_succ]
    have hc0 : ¬ condFirst (grid1.coords t) := fun h => h0 ((hcondFirst t).mp h)
    by_cases h1 : t.val = 31
    · -- the last point
      have hc1 : condLast (grid1.coords t) := (hcondLast t).mpr h1
      rw [show (dat1 V c).leavesExact 3 t = owns (c : Thread nD τ) (st1_3 t) fullShare ((dat1 V c).after 3 t) from by
        unfold Dat.leavesExact; rw [liveAt1_3 t hc1], after1_3, accAt_succ]
      iintro ⟨⟨Hoth, HS, Hg⟩, Ho, ⟨%d0, H0⟩, ⟨%d1, H1⟩, ⟨%d2, H2⟩, ⟨%d3, H3⟩⟩
      iapply (sound_kernel1_last c Set.univ _ _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexact H3
    · -- a point between
      have hc1 : ¬ condLast (grid1.coords t) := fun h => h1 ((hcondLast t).mp h)
      rw [Dat.leavesExact_idle (dat1 V c) 3 t (idleAt1_3 t hc1) (noFlush1_3 t hc1)]
      iintro ⟨⟨Hoth, HS, Hg⟩, Ho, ⟨%d0, H0⟩, ⟨%d1, H1⟩, ⟨%d2, H2⟩, ⟨%d3, H3⟩⟩
      iapply (sound_kernel1_mid c Set.univ _ _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3

/-- The body obligation of the main call, at every point. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first point, -/
theorem hin1 (c : Dev nD) : Pipeline.ΦA spec1 c ⊢ (dat1 V c).Φ 0 := .rfl

/-- and after the last point the invariant gives it back: the running scalar's value is forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl,
    Phi1_pos V c _ (by rw [Fin.val_last]; have : cfg1.N = 32 := N_1; omega)]
  iintro ⟨Hoth, HS, Hg⟩
  iapply PhiA1_join c
  isplitl [Hoth]; · iexact Hoth
  isplitl [HS]; · iexists _; iexact HS
  iexact Hg

end Cert.KernelIdeal.Frame

end
-- ==== Proof.KernelIdeal.Run.lean ====
/-
  The whole program run: the buffer contents at each boundary of @main (the launch memory; after the pooling
  call, its result array at what its write-backs leave; after the main call likewise; after the final reshape),
  every argument array read back through them to its launch contents, the two calls as segments over the
  thread state "every unscoped buffer at the boundary's contents, the generator register at some state,
  nothing owed", and the launch: every weakly fair execution terminates with every unscoped buffer at the last
  boundary's contents.
-/
import proofs.«154266_j47399259079182_1_alg».proof.Proof.KernelIdeal.Region0
import proofs.«154266_j47399259079182_1_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references (what the pooling call's proof data take). -/
abbrev V1 : (c : Dev nD) → (b : Ref sig .tc) → Buf (Elt F) ((c : Thread nD τ).loc b) := fun c b => W0 m ρ c b
/-- At the pooling call's exit: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the main call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the final reshape. -/
abbrev W4 : Dev nD → Valuation τ sig (Elt F) := fun c => StableHlo.after hostOps2 (W3 m ρ c)

/-- The reshape writes the scalar result only. -/
theorem W4_of_ne (c : Dev nD) (b : Ref sig .tc) (hb : b ≠ main_v2) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The arguments end as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W0 m ρ c (Proc.devRef .tc main_arg0) := W2_of_ne m ρ c main_arg0 (by decide)
    _ = m ((c : Thread nD τ).loc main_arg0) := rfl
theorem W2_main_arg1 (c : Dev nD) : W2 m ρ c (Proc.devRef .tc main_arg1) = m ((c : Thread nD τ).loc main_arg1) :=
  (W2_arr m ρ c 0).trans (((dat0 (V1 m ρ) c).arrAt_in 0 rfl _).trans (A_eq0 (V1 m ρ) c 0))
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (W3_arr m ρ c 0).trans (((dat1 (V2 m ρ) c).arrAt_in 0 rfl _).trans (A_eq1 (V2 m ρ) c 0))
    _ = m ((c : Thread nD τ).loc main_arg1) := W2_main_arg1 m ρ c
theorem W2_main_arg2 (c : Dev nD) : W2 m ρ c (Proc.devRef .tc main_arg2) = m ((c : Thread nD τ).loc main_arg2) :=
  (W2_of_ne m ρ c main_arg2 (by decide)).trans rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 2).trans (((dat1 (V2 m ρ) c).arrAt_in 2 rfl _).trans (A_eq1 (V2 m ρ) c 2))
    _ = m ((c : Thread nD τ).loc main_arg2) := W2_main_arg2 m ρ c

/-- No call has a prefetched table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The pooling call as a segment: entered from every unscoped buffer at `W0`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main call as a segment: entered from every unscoped buffer at `W2`, left at `W3`; its invariant is entered
    from the class's (the scratch at anything) and gives the class's back (the running scalar forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's three segments in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: every weakly fair execution of @main from `m` with zero counters terminates, nothing faulting, and every
    final state has every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The result and the arguments after the run: the scalar result at the last boundary's contents. -/
theorem run_result : θ_run defs (onTc (τ := τ) (main (F := F))) ⟨m, fun _ => 0, ρ⟩ (fun r => ∀ c : Dev nD,
      r.2.mem ((c.tc : Thread nD τ).loc main_v2) = W4 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v2 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Frame

end
-- ==== Proof.Spec.lean ====
/-
  The quantity both programs compute, written once over the argument arrays.

  `tg` holds a class label per pixel of eight 1024×1024 images, `att` an attention map per image, class,
  16×16 patch `l` of the image (4096 of them, row-major: 64 rows of 64) and 16×16 patch `m` of the 4×4-pooled
  256×256 image (256 of them: 16 rows of 16). With `oh` the indicator of class `c` and `pool` its mean over each
  4×4 cell, the target attention of patch `l` on pooled patch `m` is the mean over the 256 positions `k` inside a
  patch (16 rows of 16) of `oh` at position `k` of patch `l` times `pool` at position `k` of patch `m`, and the
  loss is the mean square of `att - target` over all 8·4·4096·256 entries. Every scale is a power of two, written
  as a product with its real reciprocal; every sum is a sum of extended reals, so no order of summation matters.
-/
import Idealize.ShloMosaic.PureOps.Ideal
import Idealize.ShloMosaic.Lib.ValueIdx

noncomputable section

namespace Cert.Loss

open Idealize.ShloMosaic Idealize.ShloMosaic.ValueIdx

/-- The indicator of `x = c` as an extended real. -/
def ind (x c : BitVec 32) : EReal := if x = c then 1 else 0

/-- The label of class `c` as a word. -/
def cls (c : Fin 4) : BitVec 32 := BitVec.ofNat 32 c.val

/-- Quotient and remainder of a flat index by the row length, as `Fin`s, at the four sizes met:
    a position in a patch (16 rows of 16), a patch of the pooled image (16 rows of 16), a patch of the
    image (64 rows of 64), a patch of a quarter-image band (16 rows of 64). -/
def q16 (k : Fin 256) : Fin 16 := ⟨k.val / 16, by omega⟩
def r16 (k : Fin 256) : Fin 16 := ⟨k.val % 16, by omega⟩
def q64 (l : Fin 4096) : Fin 64 := ⟨l.val / 64, by omega⟩
def r64 (l : Fin 4096) : Fin 64 := ⟨l.val % 64, by omega⟩
def bq64 (l : Fin 1024) : Fin 16 := ⟨l.val / 64, by omega⟩
def br64 (l : Fin 1024) : Fin 64 := ⟨l.val % 64, by omega⟩

/-- Row `p` of patch-row `q`, `16 q + p`: in the image (64 patch-rows), in the pooled image or a band (16). -/
def row64 (q : Fin 64) (p : Fin 16) : Fin 1024 := ⟨16 * q.val + p.val, by omega⟩
def row16 (q : Fin 16) (p : Fin 16) : Fin 256 := ⟨16 * q.val + p.val, by omega⟩

/-- Row `d` of pooling cell `q`: `4 q + d`. -/
def cell (q : Fin 256) (d : Fin 4) : Fin 1024 := ⟨4 * q.val + d.val, by omega⟩

/-- The label array's type and the attention array's. -/
abbrev Labels : Type := (⟨3, ![8, 1024, 1024]⟩ : Shape).Idx → BitVec 32
abbrev Atts : Type := (⟨4, ![8, 4, 4096, 256]⟩ : Shape).Idx → EReal

/-- The indicator of class `c` at pixel `(h, w)` of image `b`. -/
def oh (tg : Labels) (b : Fin 8) (c : Fin 4) (h w : Fin 1024) : EReal := ind (tg (ix3 b h w)) (cls c)

/-- Its mean over the 4×4 cell `(hc, wc)`. -/
def pool (tg : Labels) (b : Fin 8) (c : Fin 4) (hc wc : Fin 256) : EReal :=
  (∑ di : Fin 4, ∑ dj : Fin 4, oh tg b c (cell hc di) (cell wc dj)) * ((1 / 16 : ℝ) : EReal)

/-- The target attention of image patch `l` on pooled patch `m`, for image `b` and class `c`. -/
def target (tg : Labels) (b : Fin 8) (c : Fin 4) (l : Fin 4096) (m : Fin 256) : EReal :=
  (∑ k : Fin 256,
      oh tg b c (row64 (q64 l) (q16 k)) (row64 (r64 l) (r16 k))
        * pool tg b c (row16 (q16 m) (q16 k)) (row16 (r16 m) (r16 k)))
    * ((1 / 256 : ℝ) : EReal)

/-- The squared error of one entry. -/
def sqErr (tg : Labels) (att : Atts) (b : Fin 8) (c : Fin 4) (l : Fin 4096) (m : Fin 256) : EReal :=
  (att (ix4 b c l m) - target tg b c l m) * (att (ix4 b c l m) - target tg b c l m)

/-- The loss: the mean squared error over all entries. -/
def loss (tg : Labels) (att : Atts) : EReal :=
  (∑ b : Fin 8, ∑ c : Fin 4, ∑ l : Fin 4096, ∑ m : Fin 256, sqErr tg att b c l m)
    * ((1 / 33554432 : ℝ) : EReal)

end Cert.Loss

end
-- ==== Proof.PoolValue.lean ====
/-
  The pooling kernel's four stored values read at an index: store `c` of the body writes, at cell `(hc, wc)`,
  the mean over the 4×4 cell of the indicator of class `c` on the image's label block.
-/
import proofs.«154266_j47399259079182_1_alg».proof.Proof.Gen.KernelIdeal.Skeleton
import proofs.«154266_j47399259079182_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PoolValue

open Idealize.ShloMosaic Idealize.ShloMosaic.ValueIdx Cert.KernelIdeal Cert.KernelIdeal.Gen Cert.Loss

/-- The mean over cell `(hc, wc)` of the indicator of class `c` on ONE image's label block. -/
def cellMean (v0 : Vec Ideal S1x1024x1024 .i32) (c : Fin 4) (hc wc : Fin 256) : EReal :=
  (∑ di : Fin 4, ∑ dj : Fin 4, ind (v0 (ix3 0 (cell hc di) (cell wc dj))) (cls c)) * ((1 / 16 : ℝ) : EReal)

/-- The word `0x3D800000` is the float `1/16`. -/
theorem sixteenth : Ideal.ofBits .f32 0x3D800000#32 = ((1 / 16 : ℝ) : EReal) := by
  simp [Ideal.ofBits, Ideal.ieee, -EReal.coe_mul]; norm_num

/-- A 0/1 compare bit, widened to a word and read as a signed integer, is the indicator of the equality. -/
theorem ind_word (x c : BitVec 32) :
    FloatOps.sitofp (F := Ideal) .f32 ((IntOp.cmpi .eq x c).setWidth 32) = ind x c := by
  unfold ind
  by_cases hxc : x = c
  · subst hxc
    rw [if_pos rfl]
    have hb : IntOp.cmpi .eq x x = 1#1 := by simp [IntOp.cmpi]
    rw [hb]
    show (((((1#1 : BitVec 1).setWidth 32).toInt : ℝ)) : EReal) = 1
    have : ((1#1 : BitVec 1).setWidth 32).toInt = 1 := by decide
    rw [this]; simp
  · rw [if_neg hxc]
    have hb : IntOp.cmpi .eq x c = 0#1 := by
      show BitVec.ofBool (x == c) = 0#1
      rw [beq_eq_false_iff_ne.mpr hxc]; rfl
    rw [hb]
    show (((((0#1 : BitVec 1).setWidth 32).toInt : ℝ)) : EReal) = 0
    have : ((0#1 : BitVec 1).setWidth 32).toInt = 0 := by decide
    rw [this]; simp

/-- The image's label block viewed as a 1024×1024 array reads the block at `(0, h, w)`. -/
theorem labels_apply (v0 : Vec Ideal S1x1024x1024 .i32) (h w : Fin 1024) :
    k0_pay3 (F := Ideal) v0 (ix2 h w) = v0 (ix3 0 h w) := by
  unfold k0_pay3
  refine shapeCast_apply v0 _ _ (ix3 0 h w) ?_
  rw [Shape.rowMajor_val_two, Shape.rowMajor_val_three]
  show (0 * 1024 + h.val) * 1024 + w.val = h.val * 1024 + w.val
  omega

/-- The float indicator image of class word `c` at pixel `(h, w)`. -/
theorem onehot_apply (v0 : Vec Ideal S1x1024x1024 .i32) (c : BitVec 32) (h w : Fin 1024) :
    (sitofp .f32 (extui 32 (cmpi .eq (k0_pay3 (F := Ideal) v0) (broadcast S1024x1024 c)) natLt_1_32)
        : FVec Ideal S1024x1024 .f32) (ix2 h w)
      = ind (v0 (ix3 0 h w)) c := by
  rw [sitofp_apply, extui_apply]
  show FloatOps.sitofp (F := Ideal) .f32 ((IntOp.cmpi .eq (k0_pay3 (F := Ideal) v0 (ix2 h w)) c).setWidth 32) = _
  rw [labels_apply, ind_word]

/-- Summing the four rows of each row cell: the 1024×1024 image cut into 256 bands of 4 rows, summed over the band. -/
theorem rows_apply (x : FVec Ideal S1024x1024 .f32) (h : S1024x1024.ShapeCasts S256x4x1024)
    (hr : S256x4x1024.Reduces [1] S256x1024) (hφ : FKind.Formats .f32)
    (hacc : (0x00000000#32 : BitVec 32) = 0x00000000#32) (r : Fin 256) (w : Fin 1024) :
    multiReduction .add [1] S256x1024 (shapeCast S256x4x1024 x h) 0x00000000#32 hr hφ hacc (ix2 r w)
      = ∑ d : Fin 4, x (ix2 (cell r d) w) := by
  refine (Ideal.multiReduction_add_single (shapeCast S256x4x1024 x h) 0x00000000#32 hr hφ hacc (ix2 r w)).trans ?_
  refine Finset.sum_congr rfl fun d _ => ?_
  refine shapeCast_apply x h _ (ix2 (cell r d) w) ?_
  rw [Shape.rowMajor_val_two, Shape.rowMajor_val_three]
  show (4 * r.val + d.val) * 1024 + w.val = (r.val * 4 + d.val) * 1024 + w.val
  omega

/-- Summing the four columns of each column cell: a 1024-wide row cut into 256 groups of 4 lanes, summed over the group. -/
theorem lanes_apply (y : FVec Ideal S256x1024 .f32) (h : S256x1024.ShapeCasts S256x256x4)
    (hr : S256x256x4.Reduces [2] S256x256) (hφ : FKind.Formats .f32)
    (hacc : (0x00000000#32 : BitVec 32) = 0x00000000#32) (r q : Fin 256) :
    multiReduction .add [2] S256x256 (shapeCast S256x256x4 y h) 0x00000000#32 hr hφ hacc (ix2 r q)
      = ∑ e : Fin 4, y (ix2 r (cell q e)) := by
  refine (Ideal.multiReduction_add_single (shapeCast S256x256x4 y h) 0x00000000#32 hr hφ hacc (ix2 r q)).trans ?_
  refine Finset.sum_congr rfl fun e _ => ?_
  refine shapeCast_apply y h _ (ix2 r (cell q e)) ?_
  rw [Shape.rowMajor_val_two, Shape.rowMajor_val_three]
  show r.val * 1024 + (4 * q.val + e.val) = (r.val * 256 + q.val) * 4 + e.val
  omega

/-- The stored 1×1×256×256 block reads the 256×256 array at `(hc, wc)`. -/
theorem out_apply (z : FVec Ideal S256x256 .f32) (h : S256x256.ShapeCasts S1x1x256x256) (hc wc : Fin 256) :
    shapeCast S1x1x256x256 z h (ix4 0 0 hc wc) = z (ix2 hc wc) := by
  refine shapeCast_apply z h _ (ix2 hc wc) ?_
  rw [Shape.rowMajor_val_two, Shape.rowMajor_val_four]
  show hc.val * 256 + wc.val = ((0 * 1 + 0) * 256 + hc.val) * 256 + wc.val
  omega

/-- The shared tail of the four payloads after the lane groups are formed: lane sum, scale by 1/16, store layout. -/
theorem tail_apply (y : FVec Ideal S256x1024 .f32) (hc wc : Fin 256) :
    k0_pay1 (F := Ideal) (shapeCast S256x256x4 y shapeCasts_S256x1024_S256x256x4) (ix4 0 0 hc wc)
      = (∑ e : Fin 4, y (ix2 hc (cell wc e))) * ((1 / 16 : ℝ) : EReal) := by
  unfold k0_pay1
  rw [out_apply, mulf_apply, lanes_apply, broadcast_apply]
  show _ * Ideal.ofBits .f32 0x3D800000#32 = _
  rw [sixteenth]

/-- The whole pooling of a float image `x`: row-cell sum, column-cell sum, scale by 1/16. -/
theorem pooled_apply (x : FVec Ideal S1024x1024 .f32) (hc wc : Fin 256) :
    k0_pay1 (F := Ideal)
        (shapeCast S256x256x4
          (multiReduction .add [1] S256x1024 (shapeCast S256x4x1024 x shapeCasts_S1024x1024_S256x4x1024)
            0x00000000#32 reduces_S256x4x1024_S256x1024 (.inl rfl) rfl)
          shapeCasts_S256x1024_S256x256x4) (ix4 0 0 hc wc)
      = (∑ di : Fin 4, ∑ dj : Fin 4, x (ix2 (cell hc di) (cell wc dj))) * ((1 / 16 : ℝ) : EReal) := by
  rw [tail_apply]
  congr 1
  rw [Finset.sum_comm]
  refine Finset.sum_congr rfl fun e _ => ?_
  rw [rows_apply]

theorem pay4_apply (v0 : Vec Ideal S1x1024x1024 .i32) (hc wc : Fin 256) :
    k0_pay4 (F := Ideal) v0 (ix4 0 0 hc wc) = cellMean v0 0 hc wc := by
  show k0_pay1 (F := Ideal) _ (ix4 0 0 hc wc) = _
  rw [pooled_apply]
  unfold cellMean
  congr 1
  refine Finset.sum_congr rfl fun di _ => Finset.sum_congr rfl fun dj _ => ?_
  exact onehot_apply v0 _ _ _

theorem pay5_apply (v0 : Vec Ideal S1x1024x1024 .i32) (hc wc : Fin 256) :
    k0_pay5 (F := Ideal) v0 (ix4 0 0 hc wc) = cellMean v0 1 hc wc := by
  show k0_pay1 (F := Ideal) _ (ix4 0 0 hc wc) = _
  rw [pooled_apply]
  unfold cellMean
  congr 1
  refine Finset.sum_congr rfl fun di _ => Finset.sum_congr rfl fun dj _ => ?_
  exact onehot_apply v0 _ _ _

theorem pay1_apply (v0 : Vec Ideal S1x1024x1024 .i32) (hc wc : Fin 256) :
    k0_pay1 (F := Ideal) (k0_pay6 (F := Ideal) v0) (ix4 0 0 hc wc) = cellMean v0 2 hc wc := by
  unfold k0_pay6
  rw [pooled_apply]
  unfold cellMean
  congr 1
  refine Finset.sum_congr rfl fun di _ => Finset.sum_congr rfl fun dj _ => ?_
  exact onehot_apply v0 _ _ _

theorem pay2_apply (v0 : Vec Ideal S1x1024x1024 .i32) (hc wc : Fin 256) :
    k0_pay2 (F := Ideal) (k0_pay3 (F := Ideal) v0) (ix4 0 0 hc wc) = cellMean v0 3 hc wc := by
  show k0_pay1 (F := Ideal) _ (ix4 0 0 hc wc) = _
  rw [pooled_apply]
  unfold cellMean
  congr 1
  refine Finset.sum_congr rfl fun di _ => Finset.sum_congr rfl fun dj _ => ?_
  exact onehot_apply v0 _ _ _

end Cert.KernelIdeal.PoolValue

end
-- ==== Proof.KernelIdeal.Value0.lean ====
/-
  The pooled map the pooling call leaves in its result array: at every index the mean of the class indicator
  over the 4×4 cell, as the specification's `pool` of the label array the call was entered with.
-/
import proofs.«154266_j47399259079182_1_alg».proof.Proof.KernelIdeal.Region0
import proofs.«154266_j47399259079182_1_alg».proof.Proof.PoolValue
import proofs.«154266_j47399259079182_1_alg».proof.Proof.Spec
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Loss

variable (V : (c : Dev nD) → (b : Ref sig .tc) → Buf (Elt Ideal) ((c : Thread nD τ).loc b))

namespace Pool0

/-- The zero offsets of a rank-3 block. -/
theorem zero_off3 : (![0, 0, 0] : Fin 3 → Nat) = fun _ => 0 := funext fun a => by fin_cases a <;> rfl

/-- Every index of a channel plane is `(0, 0, hc, wc)`. -/
theorem plane_idx (x : S1x1x256x256.Idx) : x = ix4 0 0 (x 2) (x 3) := by
  have h0 : (x 0).val < 1 := (x 0).isLt
  have h1 : (x 1).val < 1 := (x 1).isLt
  funext a
  match a with
  | ⟨0, _⟩ => exact Fin.ext (by show (x 0).val = 0; omega)
  | ⟨1, _⟩ => exact Fin.ext (by show (x 1).val = 0; omega)
  | ⟨2, _⟩ => rfl
  | ⟨3, _⟩ => rfl

/-- The four planes of cell means of a label block, as one function of the pooled block's index. -/
def planeMeans (x0 : Vec Ideal S1x1024x1024 .i32) : S1x4x256x256.Idx → EReal :=
  fun y => PoolValue.cellMean x0 (y 1) (y 2) (y 3)

/-- Plane 0 of the pooled block sits at channel 0. -/
theorem emb_plane0 (hc wc : Fin 256) : rCh0.emb (ix4 0 0 hc wc) = ix4 0 0 hc wc := by
  funext a
  apply Fin.ext
  match a with
  | ⟨0, _⟩ => rfl
  | ⟨1, _⟩ => rfl
  | ⟨2, _⟩ => show 0 + 1 * hc.val = hc.val; omega
  | ⟨3, _⟩ => show 0 + 1 * wc.val = wc.val; omega

theorem plane0 (x0 : Vec Ideal S1x1024x1024 .i32) (x : S1x1x256x256.Idx) :
    (k0_pay4 (F := Ideal) x0 x : EReal) = planeMeans x0 (rCh0.emb x) := by
  obtain ⟨hc, wc, rfl⟩ : ∃ hc wc : Fin 256, x = ix4 0 0 hc wc := ⟨x 2, x 3, plane_idx x⟩
  rw [emb_plane0]
  exact PoolValue.pay4_apply x0 hc wc

/-- Plane 1 of the pooled block sits at channel 1. -/
theorem emb_plane1 (hc wc : Fin 256) : rCh1.emb (ix4 0 0 hc wc) = ix4 0 1 hc wc := by
  funext a
  apply Fin.ext
  match a with
  | ⟨0, _⟩ => rfl
  | ⟨1, _⟩ => rfl
  | ⟨2, _⟩ => show 0 + 1 * hc.val = hc.val; omega
  | ⟨3, _⟩ => show 0 + 1 * wc.val = wc.val; omega

theorem plane1 (x0 : Vec Ideal S1x1024x1024 .i32) (x : S1x1x256x256.Idx) :
    (k0_pay5 (F := Ideal) x0 x : EReal) = planeMeans x0 (rCh1.emb x) := by
  obtain ⟨hc, wc, rfl⟩ : ∃ hc wc : Fin 256, x = ix4 0 0 hc wc := ⟨x 2, x 3, plane_idx x⟩
  rw [emb_plane1]
  exact PoolValue.pay5_apply x0 hc wc

/-- Plane 2 of the pooled block sits at channel 2. -/
theorem emb_plane2 (hc wc : Fin 256) : rCh2.emb (ix4 0 0 hc wc) = ix4 0 2 hc wc := by
  funext a
  apply Fin.ext
  match a with
  | ⟨0, _⟩ => rfl
  | ⟨1, _⟩ => rfl
  | ⟨2, _⟩ => show 0 + 1 * hc.val = hc.val; omega
  | ⟨3, _⟩ => show 0 + 1 * wc.val = wc.val; omega

theorem plane2 (x0 : Vec Ideal S1x1024x1024 .i32) (x : S1x1x256x256.Idx) :
    (k0_pay1 (F := Ideal) (k0_pay6 (F := Ideal) x0) x : EReal) = planeMeans x0 (rCh2.emb x) := by
  obtain ⟨hc, wc, rfl⟩ : ∃ hc wc : Fin 256, x = ix4 0 0 hc wc := ⟨x 2, x 3, plane_idx x⟩
  rw [emb_plane2]
  exact PoolValue.pay1_apply x0 hc wc

/-- Plane 3 of the pooled block sits at channel 3. -/
theorem emb_plane3 (hc wc : Fin 256) : rCh3.emb (ix4 0 0 hc wc) = ix4 0 3 hc wc := by
  funext a
  apply Fin.ext
  match a with
  | ⟨0, _⟩ => rfl
  | ⟨1, _⟩ => rfl
  | ⟨2, _⟩ => show 0 + 1 * hc.val = hc.val; omega
  | ⟨3, _⟩ => show 0 + 1 * wc.val = wc.val; omega

theorem plane3 (x0 : Vec Ideal S1x1024x1024 .i32) (x : S1x1x256x256.Idx) :
    (k0_pay2 (F := Ideal) (k0_pay3 (F := Ideal) x0) x : EReal) = planeMeans x0 (rCh3.emb x) := by
  obtain ⟨hc, wc, rfl⟩ : ∃ hc wc : Fin 256, x = ix4 0 0 hc wc := ⟨x 2, x 3, plane_idx x⟩
  rw [emb_plane3]
  exact PoolValue.pay2_apply x0 hc wc

/-- The pooled block after the body holds, at `(·, ch, hc, wc)`, the cell mean of class `ch` of the label block. -/
theorem out_block_apply (x0 : Vec Ideal S1x1024x1024 .i32) (y : S1x4x256x256.Idx) :
    (out0_1 (F := Ideal) x0 y : EReal) = planeMeans x0 y := by
  unfold out0_1
  rw [View.ld_unit_zero (S := S1x1024x1024) zero_off3]
  refine View.canon_apply_of_pieces (Val := Elt Ideal) (S := S1x4x256x256) (e := .f32) (planeMeans x0) _ ?_ y
    (cover0_1 _ _ _ _ y)
  intro p hp x
  simp only [List.mem_cons, List.not_mem_nil, or_false] at hp
  rcases hp with rfl | rfl | rfl | rfl
  · exact plane3 x0 x
  · exact plane2 x0 x
  · exact plane1 x0 x
  · exact plane0 x0 x

/-- The block indices of the two windows at point `t`: image `t` on the leading axis, zero elsewhere. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

/-- The image a grid point works on. -/
def img (t : Fin cfg0.N) : Fin 8 := ⟨t.val, t.isLt.trans_eq (N_0 : cfg0.N = 8)⟩

/-- The label window's block at point `t` is image `t` of the label array. -/
theorem label_block_apply (c : Dev nD) (t : Fin cfg0.N) (h w : Fin 1024) :
    (iblk0 (F := Ideal) V c 0 t : Vec Ideal S1x1024x1024 .i32) (ix3 0 h w)
      = (V c main_arg1 : S8x1024x1024.Idx → BitVec 32) (ix3 (img t) h w) := by
  obtain ⟨e0, e1, e2, -⟩ := idx_facts t
  unfold iblk0
  rw [View.read_apply]
  show V c main_arg1 _ = V c main_arg1 _
  congr 1
  funext a
  apply Fin.ext
  match a with
  | ⟨0, _⟩ => show win0_0.index t (0 : Fin 3) * 1 + 1 * 0 = t.val; omega
  | ⟨1, _⟩ => show win0_0.index t (1 : Fin 3) * 1024 + 1 * h.val = h.val; omega
  | ⟨2, _⟩ => show win0_0.index t (2 : Fin 3) * 1024 + 1 * w.val = w.val; omega

/-- The cell means of image `t`'s label block are the specification's pooled map of image `t`. -/
theorem cellMean_block (c : Dev nD) (t : Fin cfg0.N) (ch : Fin 4) (hc wc : Fin 256) :
    PoolValue.cellMean (iblk0 (F := Ideal) V c 0 t) ch hc wc = pool (V c main_arg1) (img t) ch hc wc := by
  unfold PoolValue.cellMean Cert.Loss.pool Cert.Loss.oh
  congr 1
  refine Finset.sum_congr rfl fun di _ => Finset.sum_congr rfl fun dj _ => ?_
  rw [label_block_apply]

/-- The pooled array the call leaves, as one function of the label array it was entered with. -/
def pooled (c : Dev nD) : S8x4x256x256.Idx → EReal :=
  fun j => Cert.Loss.pool (V c main_arg1) (j 0) (j 1) (j 2) (j 3)

/-- What point `t` writes back is block `t` of the pooled map. -/
theorem flushed_eq (c : Dev nD) (t : Fin cfg0.N) :
    (dat0 (F := Ideal) V c).flushed 1 t = ((cfg0.win 1).blk t).view.read (Elt Ideal) (pooled V c) := by
  show (cfg0.win 1).cut (grid0.coords t) ((dat0 (F := Ideal) V c).after 1 t) = _
  rw [after0_1]
  obtain ⟨-, -, -, e0, e1, e2, e3⟩ := idx_facts t
  have key : ∀ y : S1x4x256x256.Idx,
      (out0_1 (F := Ideal) (iblk0 (F := Ideal) V c 0 t) y : EReal) = pooled V c (((cfg0.win 1).blk t).view.emb y) := by
    intro y
    obtain ⟨a, ch, hc, wc, rfl⟩ : ∃ (a : Fin 1) (ch : Fin 4) (hc wc : Fin 256), y = ix4 a ch hc wc :=
      ⟨y 0, y 1, y 2, y 3, eq_ix4 y⟩
    have ha : a.val < 1 := a.isLt
    have hemb : ((cfg0.win 1).blk t).view.emb (ix4 a ch hc wc) = ix4 (img t) ch hc wc := by
      funext k
      apply Fin.ext
      match k with
      | ⟨0, _⟩ => show win0_1.index t (0 : Fin 4) * 1 + 1 * a.val = t.val; omega
      | ⟨1, _⟩ => show win0_1.index t (1 : Fin 4) * 4 + 1 * ch.val = ch.val; omega
      | ⟨2, _⟩ => show win0_1.index t (2 : Fin 4) * 256 + 1 * hc.val = hc.val; omega
      | ⟨3, _⟩ => show win0_1.index t (3 : Fin 4) * 256 + 1 * wc.val = wc.val; omega
    rw [out_block_apply, hemb]
    show PoolValue.cellMean (iblk0 (F := Ideal) V c 0 t) ch hc wc = Cert.Loss.pool (V c main_arg1) (img t) ch hc wc
    exact cellMean_block V c t ch hc wc
  funext y
  exact key y

/-- Every index of the pooled array lies in the block of the point of its image. -/
theorem pooled_cover (i : S8x4x256x256.Idx) :
    ∃ t : Fin cfg0.N, (cfg0.win 1).flush t = true ∧ i ∈ ((cfg0.win 1).blk t).view.set := by
  have hb : (i 0).val < 8 := (i 0).isLt
  have h1 : (i 1).val < 4 := (i 1).isLt
  have h2 : (i 2).val < 256 := (i 2).isLt
  have h3 : (i 3).val < 256 := (i 3).isLt
  obtain ⟨t, ht⟩ : ∃ t : Fin cfg0.N, t.val = (i 0).val := ⟨⟨(i 0).val, hb.trans_eq (N_0 : cfg0.N = 8).symm⟩, rfl⟩
  refine ⟨t, flush0_1 t, ?_⟩
  obtain ⟨-, -, -, e0, e1, e2, e3⟩ := idx_facts t
  show i ∈ ((View.whole main_v0).slice (win0_1.rect t)).set
  rw [View.set_slice_whole, Rect.mem_set_unit]
  intro a
  match a with
  | ⟨0, _⟩ =>
    show win0_1.index t (0 : Fin 4) * 1 ≤ (i 0).val ∧ (i 0).val < win0_1.index t (0 : Fin 4) * 1 + 1
    rw [e0]; omega
  | ⟨1, _⟩ =>
    show win0_1.index t (1 : Fin 4) * 4 ≤ (i 1).val ∧ (i 1).val < win0_1.index t (1 : Fin 4) * 4 + 4
    rw [e1]; omega
  | ⟨2, _⟩ =>
    show win0_1.index t (2 : Fin 4) * 256 ≤ (i 2).val ∧ (i 2).val < win0_1.index t (2 : Fin 4) * 256 + 256
    rw [e2]; omega
  | ⟨3, _⟩ =>
    show win0_1.index t (3 : Fin 4) * 256 ≤ (i 3).val ∧ (i 3).val < win0_1.index t (3 : Fin 4) * 256 + 256
    rw [e3]; omega

end Pool0

/-- After all eight points the pooled array holds, at `(b, ch, hc, wc)`, the specification's `pool` of the labels. -/
theorem pooled_final (c : Dev nD) (b : Fin 8) (ch : Fin 4) (hc wc : Fin 256) :
    ((dat0 (F := Ideal) V c).arrAt 1 cfg0.N : S8x4x256x256.Idx → EReal) (ix4 b ch hc wc)
      = pool (V c main_arg1) b ch hc wc := by
  have h := (dat0 (F := Ideal) V c).arrAt_eq_of_cover 1 (Pool0.pooled V c) (fun t _ => Pool0.flushed_eq V c t)
    Pool0.pooled_cover
  exact congrFun h (ix4 b ch hc wc)

end Cert.KernelIdeal.Frame

end
-- ==== Proof.MainValue.lean ====
/-
  The main kernel's stored values read at an index. Each of the four class passes of the body adds to the
  running scalar the sum, over the 1024 image patches of the band and the 256 pooled patches, of the squared
  difference between the attention entry and the band's target attention; the reset stores zero; the last
  store scales the running scalar by 2⁻²⁵.
-/
import proofs.«154266_j47399259079182_1_alg».proof.Proof.Gen.KernelIdeal.Skeleton
import proofs.«154266_j47399259079182_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MainValue

open Idealize.ShloMosaic Idealize.ShloMosaic.ValueIdx Cert.KernelIdeal Cert.KernelIdeal.Gen Cert.Loss

/-- The band's target attention of its patch `l` (16 patch-rows of 64) on pooled patch `m`, for class `c`, from the
    band's labels `x5` (256 rows) and the class's pooled map `y`. -/
def bandTarget (c : Fin 4) (x5 : Vec Ideal S1x256x1024 .i32) (y : Vec Ideal S1x1x256x256 .f32) (l : Fin 1024) (m : Fin 256) : EReal :=
  (∑ k : Fin 256,
      ind (x5 (ix3 0 (row16 (bq64 l) (q16 k)) (row64 (br64 l) (r16 k)))) (cls c)
        * y (ix4 0 0 (row16 (q16 m) (q16 k)) (row16 (r16 m) (r16 k))))
    * ((1 / 256 : ℝ) : EReal)

/-- The squared error summed over the band's patches and the pooled patches, for class `c`, against the
    class's attention block `a`. -/
def bandErr (c : Fin 4) (x5 : Vec Ideal S1x256x1024 .i32) (y : Vec Ideal S1x1x256x256 .f32) (a : Vec Ideal S1x1x1024x256 .f32) : EReal :=
  ∑ l : Fin 1024, ∑ m : Fin 256,
    (a (ix4 0 0 l m) - bandTarget c x5 y l m) * (a (ix4 0 0 l m) - bandTarget c x5 y l m)

/-- The word 0x3B800000 denotes 2⁻⁸ = 1/256. -/
theorem ofBits_inv256 : Ideal.ofBits .f32 0x3B800000#32 = ((1 / 256 : ℝ) : EReal) := by
  simp [Ideal.ofBits, Ideal.ieee, -EReal.coe_mul]; norm_num

/-- The word 0x33000000 denotes 2⁻²⁵ = 1/33554432. -/
theorem ofBits_inv2p25 : Ideal.ofBits .f32 0x33000000#32 = ((1 / 33554432 : ℝ) : EReal) := by
  simp [Ideal.ofBits, Ideal.ieee, -EReal.coe_mul]; norm_num

/-- The bit of `x = c`, widened to a word and read as a signed integer, is the indicator of `x = c`. -/
theorem ind_word (x c : BitVec 32) :
    FloatOps.sitofp (F := Ideal) .f32 ((IntOp.cmpi .eq x c).setWidth 32) = ind x c := by
  show (((((IntOp.cmpi .eq x c).setWidth 32).toInt : ℤ) : ℝ) : EReal) = ind x c
  unfold ind IntOp.cmpi
  by_cases h : x = c
  · subst h; simp
  · have hb : (x == c) = false := by simpa using h
    simp [hb, h]

/-- The band operand's layout: entry (k, l) of the regrouped array, k = 16·kp + kq, l = 64·lh + lw,
    is the source at row 16·lh + kp, column 16·lw + kq. -/
theorem bandLayout_apply {α : Type} (x : S256x1024.Idx → α) (k : Fin 256) (l : Fin 1024) :
    shapeCast S256x1024 (transpose S16x16x16x64 [1, 3, 0, 2] (shapeCast S16x16x64x16 x shapeCasts_S256x1024_S16x16x64x16)
        transposes_S16x16x64x16_p1_3_0_2_S16x16x16x64) shapeCasts_S16x16x16x64_S256x1024 (ix2 k l)
      = x (ix2 (row16 (bq64 l) (q16 k)) (row64 (br64 l) (r16 k))) := by
  refine (shapeCast_apply _ _ (ix2 k l) (ix4 (q16 k) (r16 k) (bq64 l) (br64 l)) ?_).trans ?_
  · rw [Shape.rowMajor_val_four, Shape.rowMajor_val_two]
    show (((k.val / 16) * 16 + k.val % 16) * 16 + l.val / 64) * 64 + l.val % 64 = k.val * 1024 + l.val
    omega
  refine (transpose_apply _ _ _ (ix4 (q16 k) (r16 k) (bq64 l) (br64 l)) (ix4 (bq64 l) (q16 k) (br64 l) (r16 k)) (fun b => match b with
    | ⟨0, _⟩ => rfl | ⟨1, _⟩ => rfl | ⟨2, _⟩ => rfl | ⟨3, _⟩ => rfl)).trans ?_
  refine shapeCast_apply _ _ (ix4 (bq64 l) (q16 k) (br64 l) (r16 k)) (ix2 (row16 (bq64 l) (q16 k)) (row64 (br64 l) (r16 k))) ?_
  rw [Shape.rowMajor_val_four, Shape.rowMajor_val_two]
  show (16 * (l.val / 64) + k.val / 16) * 1024 + (16 * (l.val % 64) + k.val % 16)
    = (((l.val / 64) * 16 + k.val / 16) * 64 + l.val % 64) * 16 + k.val % 16
  omega

/-- The pooled operand's layout: entry (k, m), k = 16·kp + kq, m = 16·mh + mw, is the source at row
    16·mh + kp, column 16·mw + kq. -/
theorem poolLayout_apply {α : Type} (x : S256x256.Idx → α) (k m : Fin 256) :
    shapeCast S256x256 (transpose S16x16x16x16 [1, 3, 0, 2] (shapeCast S16x16x16x16 x shapeCasts_S256x256_S16x16x16x16)
        transposes_S16x16x16x16_p1_3_0_2_S16x16x16x16) shapeCasts_S16x16x16x16_S256x256 (ix2 k m)
      = x (ix2 (row16 (q16 m) (q16 k)) (row16 (r16 m) (r16 k))) := by
  refine (shapeCast_apply _ _ (ix2 k m) (ix4 (q16 k) (r16 k) (q16 m) (r16 m)) ?_).trans ?_
  · rw [Shape.rowMajor_val_four, Shape.rowMajor_val_two]
    show (((k.val / 16) * 16 + k.val % 16) * 16 + m.val / 16) * 16 + m.val % 16 = k.val * 256 + m.val
    omega
  refine (transpose_apply _ _ _ (ix4 (q16 k) (r16 k) (q16 m) (r16 m)) (ix4 (q16 m) (q16 k) (r16 m) (r16 k)) (fun b => match b with
    | ⟨0, _⟩ => rfl | ⟨1, _⟩ => rfl | ⟨2, _⟩ => rfl | ⟨3, _⟩ => rfl)).trans ?_
  refine shapeCast_apply _ _ (ix4 (q16 m) (q16 k) (r16 m) (r16 k)) (ix2 (row16 (q16 m) (q16 k)) (row16 (r16 m) (r16 k))) ?_
  rw [Shape.rowMajor_val_four, Shape.rowMajor_val_two]
  show (16 * (m.val / 16) + k.val / 16) * 256 + (16 * (m.val % 16) + k.val % 16)
    = (((m.val / 16) * 16 + k.val / 16) * 16 + m.val % 16) * 16 + k.val % 16
  omega

/-- Two leading unit axes dropped. -/
theorem drop11_256_apply {α : Type} (x : S1x1x256x256.Idx → α) (a b : Fin 256) :
    shapeCast S256x256 x shapeCasts_S1x1x256x256_S256x256 (ix2 a b) = x (ix4 0 0 a b) := by
  refine shapeCast_apply _ _ (ix2 a b) (ix4 0 0 a b) ?_
  rw [Shape.rowMajor_val_four, Shape.rowMajor_val_two]
  show ((0 * 1 + 0) * 256 + a.val) * 256 + b.val = a.val * 256 + b.val
  omega

theorem drop11_1024_apply {α : Type} (x : S1x1x1024x256.Idx → α) (a : Fin 1024) (b : Fin 256) :
    shapeCast S1024x256 x shapeCasts_S1x1x1024x256_S1024x256 (ix2 a b) = x (ix4 0 0 a b) := by
  refine shapeCast_apply _ _ (ix2 a b) (ix4 0 0 a b) ?_
  rw [Shape.rowMajor_val_four, Shape.rowMajor_val_two]
  show ((0 * 1 + 0) * 1024 + a.val) * 256 + b.val = a.val * 256 + b.val
  omega

/-- One leading unit axis dropped. -/
theorem drop1_labels_apply {α : Type} (x : S1x256x1024.Idx → α) (a : Fin 256) (b : Fin 1024) :
    shapeCast S256x1024 x shapeCasts_S1x256x1024_S256x1024 (ix2 a b) = x (ix3 0 a b) := by
  refine shapeCast_apply _ _ (ix2 a b) (ix3 0 a b) ?_
  rw [Shape.rowMajor_val_three, Shape.rowMajor_val_two]
  show (0 * 256 + a.val) * 1024 + b.val = a.val * 1024 + b.val
  omega

/-! The contraction's operand indices, axis by axis. -/
theorem lhs_dot_0 (j : S1024x256.Idx) (q : dot_S256x1024_S256x256_S1024x256_0_0_1_1_n_n.contr.Idx) :
    (dot_S256x1024_S256x256_S1024x256_0_0_1_1_n_n.lhsIdx j q 0).val = (q ⟨0, by decide⟩).val :=
  dot_S256x1024_S256x256_S1024x256_0_0_1_1_n_n.lhsIdx_val_of_single rfl j q
theorem lhs_dot_1 (j : S1024x256.Idx) (q : dot_S256x1024_S256x256_S1024x256_0_0_1_1_n_n.contr.Idx) :
    (dot_S256x1024_S256x256_S1024x256_0_0_1_1_n_n.lhsIdx j q 1).val = (j 0).val := by
  unfold DotDims.lhsIdx
  rw [dif_neg (show ¬(1 : Fin S256x1024.rank) ∈ dot_S256x1024_S256x256_S1024x256_0_0_1_1_n_n.lhsBatch by decide), dif_pos (show (1 : Fin S256x1024.rank) ∈ dot_S256x1024_S256x256_S1024x256_0_0_1_1_n_n.lhsNonContracting by decide)]
  rfl
theorem rhs_dot_0 (j : S1024x256.Idx) (q : dot_S256x1024_S256x256_S1024x256_0_0_1_1_n_n.contr.Idx) :
    (dot_S256x1024_S256x256_S1024x256_0_0_1_1_n_n.rhsIdx j q 0).val = (q ⟨0, by decide⟩).val :=
  dot_S256x1024_S256x256_S1024x256_0_0_1_1_n_n.rhsIdx_val_of_single rfl j q
theorem rhs_dot_1 (j : S1024x256.Idx) (q : dot_S256x1024_S256x256_S1024x256_0_0_1_1_n_n.contr.Idx) :
    (dot_S256x1024_S256x256_S1024x256_0_0_1_1_n_n.rhsIdx j q 1).val = (j 1).val := by
  unfold DotDims.rhsIdx
  rw [dif_neg (show ¬(1 : Fin S256x256.rank) ∈ dot_S256x1024_S256x256_S1024x256_0_0_1_1_n_n.rhsBatch by decide), dif_pos (show (1 : Fin S256x256.rank) ∈ dot_S256x1024_S256x256_S1024x256_0_0_1_1_n_n.rhsNonContracting by decide)]
  rfl

/-- The product contracting the leading axis of both operands, into the zero accumulator: entry (l, m) is the
    sum over k of A(k, l) · B(k, m). -/
theorem matmul_zero_apply (A : FVec Ideal S256x1024 .bf16) (B : FVec Ideal S256x256 .bf16) (l : Fin 1024) (m : Fin 256) :
    matmul dot_S256x1024_S256x256_S1024x256_0_0_1_1_n_n none A B (constant (F := Ideal) S1024x256 .f32 0x00000000#32) (ix2 l m)
      = ∑ k : Fin 256, A (ix2 k l) * B (ix2 k m) := by
  simp only [matmul]
  rw [Ideal.matmul_constant_zero_apply, ← Equiv.sum_comp (contrEquiv1 dot_S256x1024_S256x256_S1024x256_0_0_1_1_n_n 256 rfl rfl).symm]
  refine Finset.sum_congr rfl fun k _ => ?_
  have hk := contrEquiv1_symm_val dot_S256x1024_S256x256_S1024x256_0_0_1_1_n_n 256 rfl rfl k
  have el : dot_S256x1024_S256x256_S1024x256_0_0_1_1_n_n.lhsIdx (ix2 l m) ((contrEquiv1 dot_S256x1024_S256x256_S1024x256_0_0_1_1_n_n 256 rfl rfl).symm k) = ix2 k l := funext fun a => Fin.ext (by
    match a with
    | ⟨0, _⟩ => exact (lhs_dot_0 _ _).trans hk
    | ⟨1, _⟩ => exact lhs_dot_1 _ _)
  have er : dot_S256x1024_S256x256_S1024x256_0_0_1_1_n_n.rhsIdx (ix2 l m) ((contrEquiv1 dot_S256x1024_S256x256_S1024x256_0_0_1_1_n_n 256 rfl rfl).symm k) = ix2 k m := funext fun a => Fin.ext (by
    match a with
    | ⟨0, _⟩ => exact (rhs_dot_0 _ _).trans hk
    | ⟨1, _⟩ => exact rhs_dot_1 _ _)
  rw [el, er]

/-- The sum along each row: entry l is the sum over m of the row's entries. -/
theorem laneSum_apply (v : FVec Ideal S1024x256 .f32) (l : Fin 1024) :
    multiReduction (F := Ideal) .add [1] S1024 v 0x00000000#32 reduces_S1024x256_S1024 (.inl rfl) rfl (ix1 l)
      = ∑ m : Fin 256, v (ix2 l m) := by
  refine (Ideal.multiReduction_add_single v 0x00000000#32 reduces_S1024x256_S1024 (.inl rfl) rfl (ix1 l)).trans ?_
  exact Finset.sum_congr rfl fun m _ => congrArg v (funext fun a => Fin.ext (by
    match a with
    | ⟨0, _⟩ => rfl
    | ⟨1, _⟩ => rfl))

/-- A vector as a one-column matrix. -/
theorem column_apply {α : Type} (v : S1024.Idx → α) (l : Fin 1024) (u : Fin 1) :
    shapeCast S1024x1 v shapeCasts_S1024_S1024x1 (ix2 l u) = v (ix1 l) := by
  refine shapeCast_apply _ _ (ix2 l u) (ix1 l) ?_
  rw [Shape.rowMajor_val_one, Shape.rowMajor_val_two]
  show l.val = l.val * 1 + u.val
  omega

/-- The sum down the one column. -/
theorem colSum_apply (v : FVec Ideal S1024x1 .f32) (u : Fin 1) :
    multiReduction (F := Ideal) .add [0] S1 v 0x00000000#32 reduces_S1024x1_S1 (.inl rfl) rfl (ix1 u)
      = ∑ l : Fin 1024, v (ix2 l u) := by
  refine (Ideal.multiReduction_add_single v 0x00000000#32 reduces_S1024x1_S1 (.inl rfl) rfl (ix1 u)).trans ?_
  exact Finset.sum_congr rfl fun l _ => congrArg v (funext fun a => Fin.ext (by
    match a with
    | ⟨0, _⟩ => rfl
    | ⟨1, _⟩ => rfl))

/-- A one-entry vector as a 1×1 matrix. -/
theorem unit_apply {α : Type} (v : S1.Idx → α) (u w : Fin 1) :
    shapeCast S1x1 v shapeCasts_S1_S1x1 (ix2 u w) = v (ix1 0) := by
  refine shapeCast_apply _ _ (ix2 u w) (ix1 0) ?_
  rw [Shape.rowMajor_val_one, Shape.rowMajor_val_two]
  show 0 = u.val * 1 + w.val
  omega

/-- The class-indicator operand of a pass: the indicator of the label word `c` over the band, regrouped so that
    entry (k, l) is position k of patch l. -/
def bandA (c : BitVec 32) (v6 : IVec S256x1024 32) : FVec Ideal S256x1024 .f32 :=
  shapeCast S256x1024 (transpose S16x16x16x64 [1, 3, 0, 2] (shapeCast S16x16x64x16
    (sitofp (F := Ideal) .f32 (extui 32 (cmpi .eq v6 (broadcast S256x1024 c)) natLt_1_32)) shapeCasts_S256x1024_S16x16x64x16)
    transposes_S16x16x64x16_p1_3_0_2_S16x16x16x64) shapeCasts_S16x16x16x64_S256x1024

theorem bandA_apply (c : BitVec 32) (v6 : IVec S256x1024 32) (k : Fin 256) (l : Fin 1024) :
    bandA c v6 (ix2 k l) = ind (v6 (ix2 (row16 (bq64 l) (q16 k)) (row64 (br64 l) (r16 k)))) c := by
  unfold bandA
  rw [bandLayout_apply]
  exact ind_word _ _

/-- The pooled operand of a pass: the class's pooled map regrouped so that entry (k, m) is position k of
    pooled patch m. -/
def poolB (y : Vec Ideal S1x1x256x256 .f32) : FVec Ideal S256x256 .f32 :=
  shapeCast S256x256 (transpose S16x16x16x16 [1, 3, 0, 2] (shapeCast S16x16x16x16
    (shapeCast S256x256 y shapeCasts_S1x1x256x256_S256x256) shapeCasts_S256x256_S16x16x16x16)
    transposes_S16x16x16x16_p1_3_0_2_S16x16x16x16) shapeCasts_S16x16x16x16_S256x256

theorem poolB_apply (y : Vec Ideal S1x1x256x256 .f32) (k m : Fin 256) :
    poolB y (ix2 k m) = y (ix4 0 0 (row16 (q16 m) (q16 k)) (row16 (r16 m) (r16 k))) := by
  unfold poolB
  rw [poolLayout_apply, drop11_256_apply]

/-- What a pass adds to the running scalar, from its two operands and the attention block: the product scaled
    by 1/256, subtracted from the block, squared, summed along each row and then down the column. -/
def passSum (A : FVec Ideal S256x1024 .bf16) (B : FVec Ideal S256x256 .bf16) (a : Vec Ideal S1x1x1024x256 .f32) :
    FVec Ideal S1x1 .f32 :=
  shapeCast S1x1 (multiReduction (F := Ideal) .add [0] S1 (shapeCast S1024x1 (multiReduction (F := Ideal) .add [1] S1024
    (mulf
      (subf (shapeCast S1024x256 a shapeCasts_S1x1x1024x256_S1024x256)
        (mulf (matmul dot_S256x1024_S256x256_S1024x256_0_0_1_1_n_n none A B (constant (F := Ideal) S1024x256 .f32 0x00000000#32))
          (broadcast S1024x256 (Scalar.ofBits (F := Ideal) .f32 0x3B800000#32))))
      (subf (shapeCast S1024x256 a shapeCasts_S1x1x1024x256_S1024x256)
        (mulf (matmul dot_S256x1024_S256x256_S1024x256_0_0_1_1_n_n none A B (constant (F := Ideal) S1024x256 .f32 0x00000000#32))
          (broadcast S1024x256 (Scalar.ofBits (F := Ideal) .f32 0x3B800000#32)))))
    0x00000000#32 reduces_S1024x256_S1024 (.inl rfl) rfl) shapeCasts_S1024_S1024x1)
    0x00000000#32 reduces_S1024x1_S1 (.inl rfl) rfl) shapeCasts_S1_S1x1

theorem passSum_apply (A : FVec Ideal S256x1024 .bf16) (B : FVec Ideal S256x256 .bf16) (a : Vec Ideal S1x1x1024x256 .f32) :
    passSum A B a (ix2 0 0) = ∑ l : Fin 1024, ∑ m : Fin 256,
      (a (ix4 0 0 l m) - (∑ k : Fin 256, A (ix2 k l) * B (ix2 k m)) * ((1 / 256 : ℝ) : EReal))
        * (a (ix4 0 0 l m) - (∑ k : Fin 256, A (ix2 k l) * B (ix2 k m)) * ((1 / 256 : ℝ) : EReal)) := by
  unfold passSum
  rw [unit_apply, colSum_apply]
  refine Finset.sum_congr rfl fun l _ => ?_
  rw [column_apply, laneSum_apply]
  refine Finset.sum_congr rfl fun m _ => ?_
  rw [mulf_apply, subf_apply, mulf_apply, broadcast_apply, drop11_1024_apply, matmul_zero_apply]
  show (_ - _ * Ideal.ofBits .f32 0x3B800000#32) * (_ - _ * Ideal.ofBits .f32 0x3B800000#32) = _
  rw [ofBits_inv256]

/-- With the operands of class `c`, a pass adds the band's squared error for that class. -/
theorem passSum_band (c : Fin 4) (x5 : Vec Ideal S1x256x1024 .i32) (y : Vec Ideal S1x1x256x256 .f32) (a : Vec Ideal S1x1x1024x256 .f32) :
    passSum (truncf .bf16 (bandA (cls c) (k1_pay4 (F := Ideal) x5)) bitsLt_bf16_f32) (truncf .bf16 (poolB y) bitsLt_bf16_f32) a (ix2 0 0)
      = bandErr c x5 y a := by
  rw [passSum_apply]
  unfold bandErr bandTarget
  refine Finset.sum_congr rfl fun l _ => Finset.sum_congr rfl fun m _ => ?_
  have h : ∀ k : Fin 256,
      (truncf .bf16 (bandA (cls c) (k1_pay4 (F := Ideal) x5)) bitsLt_bf16_f32 : FVec Ideal S256x1024 .bf16) (ix2 k l)
        * (truncf .bf16 (poolB y) bitsLt_bf16_f32 : FVec Ideal S256x256 .bf16) (ix2 k m)
      = ind (x5 (ix3 0 (row16 (bq64 l) (q16 k)) (row64 (br64 l) (r16 k)))) (cls c)
        * y (ix4 0 0 (row16 (q16 m) (q16 k)) (row16 (r16 m) (r16 k))) := fun k => by
    rw [truncf_apply, truncf_apply, bandA_apply, poolB_apply]
    unfold k1_pay4
    rw [drop1_labels_apply]
  rw [Finset.sum_congr rfl fun k _ => h k]

theorem pay5_apply (x5 : Vec Ideal S1x256x1024 .i32) (y : Vec Ideal S1x1x256x256 .f32) (a : Vec Ideal S1x1x1024x256 .f32) (s : Vec Ideal S1x1 .f32) :
    k1_pay5 (F := Ideal) x5 y a s (ix2 0 0) = s (ix2 0 0) + bandErr 0 x5 y a := by
  have e : k1_pay5 (F := Ideal) x5 y a s
      = addf s (passSum (truncf .bf16 (bandA (cls 0) (k1_pay4 (F := Ideal) x5)) bitsLt_bf16_f32) (truncf .bf16 (poolB y) bitsLt_bf16_f32) a) := rfl
  rw [e, addf_apply, passSum_band]

theorem pay7_apply (x5 : Vec Ideal S1x256x1024 .i32) (y : Vec Ideal S1x1x256x256 .f32) (a : Vec Ideal S1x1x1024x256 .f32) (s : Vec Ideal S1x1 .f32) :
    k1_pay7 (F := Ideal) (k1_pay4 (F := Ideal) x5) y a s (ix2 0 0) = s (ix2 0 0) + bandErr 1 x5 y a := by
  have e : k1_pay7 (F := Ideal) (k1_pay4 (F := Ideal) x5) y a s
      = shapeCast S1x1 (addf s (passSum (truncf .bf16 (bandA (cls 1) (k1_pay4 (F := Ideal) x5)) bitsLt_bf16_f32) (truncf .bf16 (poolB y) bitsLt_bf16_f32) a))
          shapeCasts_S1x1_S1x1 := rfl
  rw [e, shapeCast_self, addf_apply, passSum_band]

theorem pay9_apply (x5 : Vec Ideal S1x256x1024 .i32) (y : Vec Ideal S1x1x256x256 .f32) (a : Vec Ideal S1x1x1024x256 .f32) (s : Vec Ideal S1x1 .f32) :
    k1_pay9 (F := Ideal) (k1_pay8 (F := Ideal) (k1_pay4 (F := Ideal) x5)) y a s (ix2 0 0) = s (ix2 0 0) + bandErr 2 x5 y a := by
  have e : k1_pay9 (F := Ideal) (k1_pay8 (F := Ideal) (k1_pay4 (F := Ideal) x5)) y a s
      = shapeCast S1x1 (addf s (passSum (truncf .bf16 (bandA (cls 2) (k1_pay4 (F := Ideal) x5)) bitsLt_bf16_f32) (truncf .bf16 (poolB y) bitsLt_bf16_f32) a))
          shapeCasts_S1x1_S1x1 := rfl
  rw [e, shapeCast_self, addf_apply, passSum_band]

theorem pay1_apply (x5 : Vec Ideal S1x256x1024 .i32) (y : Vec Ideal S1x1x256x256 .f32) (a : Vec Ideal S1x1x1024x256 .f32) (s : Vec Ideal S1x1 .f32) :
    k1_pay1 (F := Ideal) (k1_pay10 (F := Ideal) (k1_pay4 (F := Ideal) x5)) (k1_pay11 (F := Ideal) y)
      (constant (F := Ideal) S1024x256 .f32 0x00000000#32) a s (ix2 0 0) = s (ix2 0 0) + bandErr 3 x5 y a := by
  have e : k1_pay1 (F := Ideal) (k1_pay10 (F := Ideal) (k1_pay4 (F := Ideal) x5)) (k1_pay11 (F := Ideal) y)
        (constant (F := Ideal) S1024x256 .f32 0x00000000#32) a s
      = shapeCast S1x1 (addf s (passSum (truncf .bf16 (bandA (cls 3) (k1_pay4 (F := Ideal) x5)) bitsLt_bf16_f32) (truncf .bf16 (poolB y) bitsLt_bf16_f32) a))
          shapeCasts_S1x1_S1x1 := rfl
  rw [e, shapeCast_self, addf_apply, passSum_band]

theorem pay6_eq (s : FVec Ideal S1x1 .f32) : k1_pay6 (F := Ideal) s = s := by
  unfold k1_pay6
  exact shapeCast_self s _

theorem pay3_apply : k1_pay3 (F := Ideal) (ix2 0 0) = 0 := by
  unfold k1_pay3
  rw [shapeCast_self, broadcast_apply]
  exact Ideal.ofBits_zero_f32

theorem pay2_apply (s : Vec Ideal S1x1 .f32) :
    k1_pay2 (F := Ideal) s (ix2 0 0) = s (ix2 0 0) * ((1 / 33554432 : ℝ) : EReal) := by
  unfold k1_pay2
  rw [mulf_apply, broadcast_apply]
  show _ * Ideal.ofBits .f32 0x33000000#32 = _
  rw [ofBits_inv2p25]

end Cert.KernelIdeal.MainValue

end
-- ==== Proof.BandSum.lean ====
/-
  From the bands to the whole loss. A grid point of the main call covers image `b` and quarter-band `q` of it
  (256 pixel rows, 1024 patches): when the body's blocks are the corresponding parts of the label array, of
  the pooled map and of the attention array, each class pass adds the specification's squared errors of the
  band's patches; the 32 points in order, four passes each, add up every entry's squared error once.
-/
import proofs.«154266_j47399259079182_1_alg».proof.Proof.MainValue
import proofs.«154266_j47399259079182_1_alg».proof.Proof.Spec
import Idealize.ShloMosaic.Lib.ValueIdx

noncomputable section

namespace Cert.KernelIdeal.BandSum

open Idealize.ShloMosaic Idealize.ShloMosaic.ValueIdx Cert.KernelIdeal Cert.KernelIdeal.Gen Cert.Loss Cert.KernelIdeal.MainValue

/-- Pixel row `r` of quarter-band `q`: `256 q + r`. -/
def bandRow (q : Fin 4) (r : Fin 256) : Fin 1024 := ⟨256 * q.val + r.val, by omega⟩
/-- Patch `l` of quarter-band `q`: `1024 q + l`. -/
def bandPatch (q : Fin 4) (l : Fin 1024) : Fin 4096 := ⟨1024 * q.val + l.val, by omega⟩

/-! ## The band's patches among the image's -/

/-- Patch `l` of quarter-band `q` sits in patch-row `16 q + l / 64` of the image: its pixel row `p` is row
    `16 (l / 64) + p` of the band. -/
theorem row64_q64_bandPatch (q : Fin 4) (l : Fin 1024) (p : Fin 16) :
    row64 (q64 (bandPatch q l)) p = bandRow q (row16 (bq64 l) p) := by
  refine Fin.ext ?_
  show 16 * ((1024 * q.val + l.val) / 64) + p.val = 256 * q.val + (16 * (l.val / 64) + p.val)
  omega

/-- … and in the same patch-column as in the band. -/
theorem r64_bandPatch (q : Fin 4) (l : Fin 1024) : r64 (bandPatch q l) = br64 l := by
  refine Fin.ext ?_
  show (1024 * q.val + l.val) % 64 = l.val % 64
  omega

/-- Over blocks that are the band's parts of the label array and of the pooled map, the band's target is the
    specification's target of the band's patch. -/
theorem bandTarget_eq (tg : Labels) (b : Fin 8) (q : Fin 4) (ch : Fin 4)
    (x5 : Vec Ideal S1x256x1024 .i32) (y : Vec Ideal S1x1x256x256 .f32)
    (hx : ∀ (r : Fin 256) (w : Fin 1024), x5 (ix3 0 r w) = tg (ix3 b (bandRow q r) w))
    (hy : ∀ (r w : Fin 256), y (ix4 0 0 r w) = pool tg b ch r w) (l : Fin 1024) (m : Fin 256) :
    bandTarget ch x5 y l m = target tg b ch (bandPatch q l) m := by
  unfold bandTarget target oh
  refine congrArg (· * _) (Finset.sum_congr rfl fun k _ => ?_)
  rw [hx, hy, row64_q64_bandPatch, r64_bandPatch]

/-- One class pass over blocks that are the band's parts of the arrays adds the band's squared errors. -/
theorem bandErr_eq (tg : Labels) (att : Atts) (b : Fin 8) (q : Fin 4) (ch : Fin 4)
    (x5 : Vec Ideal S1x256x1024 .i32) (y : Vec Ideal S1x1x256x256 .f32) (a : Vec Ideal S1x1x1024x256 .f32)
    (hx : ∀ (r : Fin 256) (w : Fin 1024), x5 (ix3 0 r w) = tg (ix3 b (bandRow q r) w))
    (hy : ∀ (r w : Fin 256), y (ix4 0 0 r w) = pool tg b ch r w)
    (ha : ∀ (l : Fin 1024) (m : Fin 256), a (ix4 0 0 l m) = att (ix4 b ch (bandPatch q l) m)) :
    bandErr ch x5 y a = ∑ l : Fin 1024, ∑ m : Fin 256, sqErr tg att b ch (bandPatch q l) m := by
  unfold bandErr sqErr
  refine Finset.sum_congr rfl fun l _ => Finset.sum_congr rfl fun m _ => ?_
  rw [ha, bandTarget_eq tg b q ch x5 y hx hy]

/-! ## The running scalar -/

/-- After any `K ≤ N` steps the scalar holds the sum of the summands of those steps. -/
theorem fold_le (N : ℕ) (a : ℕ → EReal) (f : ℕ → Fin 4 → EReal) (h0 : a 0 = 0)
    (hs : ∀ n, n < N → a (n + 1) = a n + f n 0 + f n 1 + f n 2 + f n 3) :
    ∀ K, K ≤ N → a K = ∑ n : Fin K, ∑ ch : Fin 4, f n.val ch := by
  intro K
  induction K with
  | zero => intro _; rw [h0]; exact (Fin.sum_univ_zero _).symm
  | succ k ih =>
    intro hk
    have e4 : ∑ ch : Fin 4, f k ch = f k 0 + f k 1 + f k 2 + f k 3 := Fin.sum_univ_four _
    rw [hs k (by omega), ih (by omega), Fin.sum_univ_castSucc]
    show _ = (∑ n : Fin k, ∑ ch : Fin 4, f n.val ch) + ∑ ch : Fin 4, f k ch
    rw [e4, add_assoc, add_assoc, add_assoc, add_assoc, add_assoc]

/-- A scalar that starts at zero and takes four summands per step holds, after `N` steps, their sum. -/
theorem fold_eq (N : ℕ) (a : ℕ → EReal) (f : ℕ → Fin 4 → EReal) (h0 : a 0 = 0)
    (hs : ∀ n, n < N → a (n + 1) = a n + f n 0 + f n 1 + f n 2 + f n 3) :
    a N = ∑ n : Fin N, ∑ ch : Fin 4, f n.val ch := by
  exact fold_le N a f h0 hs N le_rfl

/-! ## The points and the patches, re-indexed -/

/-- Point `n` of 32 is (image `n / 4`, quarter-band `n % 4`). -/
def pointEquiv : Fin 8 × Fin 4 ≃ Fin 32 where
  toFun p := ⟨4 * p.1.val + p.2.val, by omega⟩
  invFun n := (⟨n.val / 4, by omega⟩, ⟨n.val % 4, by omega⟩)
  left_inv p := Prod.ext (Fin.ext (by show (4 * p.1.val + p.2.val) / 4 = p.1.val; omega))
    (Fin.ext (by show (4 * p.1.val + p.2.val) % 4 = p.2.val; omega))
  right_inv n := Fin.ext (by show 4 * (n.val / 4) + n.val % 4 = n.val; omega)

/-- A sum over the 32 points is the double sum over images and quarter-bands. -/
theorem sum_points {M : Type*} [AddCommMonoid M] (g : Fin 8 → Fin 4 → M) :
    ∑ n : Fin 32, g ⟨n.val / 4, by omega⟩ ⟨n.val % 4, by omega⟩ = ∑ b : Fin 8, ∑ q : Fin 4, g b q := by
  rw [← Fintype.sum_prod_type']
  exact Equiv.sum_comp pointEquiv.symm (fun p => g p.1 p.2)

/-- Patch `L` of 4096 is patch `L % 1024` of quarter-band `L / 1024`. -/
def patchEquiv : Fin 4 × Fin 1024 ≃ Fin 4096 where
  toFun p := bandPatch p.1 p.2
  invFun L := (⟨L.val / 1024, by omega⟩, ⟨L.val % 1024, by omega⟩)
  left_inv p := Prod.ext (Fin.ext (by show (1024 * p.1.val + p.2.val) / 1024 = p.1.val; omega))
    (Fin.ext (by show (1024 * p.1.val + p.2.val) % 1024 = p.2.val; omega))
  right_inv L := Fin.ext (by show 1024 * (L.val / 1024) + L.val % 1024 = L.val; omega)

/-- A sum over the quarter-bands and their patches is the sum over the image's patches. -/
theorem sum_patches {M : Type*} [AddCommMonoid M] (h : Fin 4096 → M) :
    ∑ q : Fin 4, ∑ l : Fin 1024, h (bandPatch q l) = ∑ L : Fin 4096, h L := by
  rw [← Fintype.sum_prod_type' (fun q l => h (bandPatch q l))]
  exact Equiv.sum_comp patchEquiv h

/-- The 32 points (image `n / 4`, quarter-band `n % 4`) cover every entry once. -/
theorem total_eq (tg : Labels) (att : Atts) :
    (∑ n : Fin 32, ∑ ch : Fin 4, ∑ l : Fin 1024, ∑ m : Fin 256,
        sqErr tg att ⟨n.val / 4, by omega⟩ ch (bandPatch ⟨n.val % 4, by omega⟩ l) m)
      = ∑ b : Fin 8, ∑ ch : Fin 4, ∑ l : Fin 4096, ∑ m : Fin 256, sqErr tg att b ch l m := by
  rw [sum_points (fun b q => ∑ ch : Fin 4, ∑ l : Fin 1024, ∑ m : Fin 256, sqErr tg att b ch (bandPatch q l) m)]
  refine Finset.sum_congr rfl fun b _ => ?_
  rw [Finset.sum_comm]
  refine Finset.sum_congr rfl fun ch _ => ?_
  exact sum_patches (fun L => ∑ m : Fin 256, sqErr tg att b ch L m)

end Cert.KernelIdeal.BandSum

end
-- ==== Proof.KernelIdeal.Value1.lean ====
/-
  The scalar the main call leaves in its result array: the specification's loss of the label and attention
  arrays, given that the pooled map it was entered with is the specification's `pool` of the labels. The
  running scalar after each point is read at its one index (four class passes, each adding a band's squared
  errors), the point's blocks are the band's parts of the arrays, the 32 points add up the whole sum, and the
  last point writes it out scaled.
-/
import proofs.«154266_j47399259079182_1_alg».proof.Proof.KernelIdeal.Region1
import proofs.«154266_j47399259079182_1_alg».proof.Proof.MainValue
import proofs.«154266_j47399259079182_1_alg».proof.Proof.BandSum
import proofs.«154266_j47399259079182_1_alg».proof.Proof.Spec
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Loss Cert.KernelIdeal.MainValue Cert.KernelIdeal.BandSum

variable (V : (c : Dev nD) → (b : Ref sig .tc) → Buf (Elt Ideal) ((c : Thread nD τ).loc b))

/-- The image and the quarter-band of a grid point: point `t` is (t / 4, t % 4). -/
def ptImg (t : Fin cfg1.N) : Fin 8 := ⟨t.val / 4, by have h : t.val < 32 := lt_of_lt_of_eq t.isLt N_1; omega⟩
def ptBand (t : Fin cfg1.N) : Fin 4 := ⟨t.val % 4, by omega⟩

/-! The printed index maps, decided over the 32 points. -/
theorem idx1_0 : ∀ t : Fin cfg1.N, win1_0.index t (0 : Fin 3) = t.val / 4 ∧ win1_0.index t (1 : Fin 3) = t.val % 4
    ∧ win1_0.index t (2 : Fin 3) = 0 :=
  (by decide +kernel : ∀ t : Fin grid1.N, _)
theorem idx1_1 : ∀ t : Fin cfg1.N, win1_1.index t (0 : Fin 4) = t.val / 4 ∧ win1_1.index t (1 : Fin 4) = 0
    ∧ win1_1.index t (2 : Fin 4) = 0 ∧ win1_1.index t (3 : Fin 4) = 0 :=
  (by decide +kernel : ∀ t : Fin grid1.N, _)
theorem idx1_2 : ∀ t : Fin cfg1.N, win1_2.index t (0 : Fin 4) = t.val / 4 ∧ win1_2.index t (1 : Fin 4) = 0
    ∧ win1_2.index t (2 : Fin 4) = t.val % 4 ∧ win1_2.index t (3 : Fin 4) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)

/-- The label block of point `t` is the quarter-band's rows of the image's labels. -/
theorem iblk1_0_apply (c : Dev nD) (t : Fin cfg1.N) (r : Fin 256) (w : Fin 1024) :
    (iblk1 V c 0 t : Vec Ideal S1x256x1024 .i32) (ix3 0 r w)
      = (V c main_arg1 : S8x1024x1024.Idx → BitVec 32) (ix3 (ptImg t) (bandRow (ptBand t) r) w) := by
  show V c main_arg1 (((cfg1.win 0).blk t).view.emb (ix3 0 r w)) = V c main_arg1 (ix3 (ptImg t) (bandRow (ptBand t) r) w)
  refine congrArg _ (funext fun a => Fin.ext ?_)
  obtain ⟨e0, e1, e2⟩ := idx1_0 t
  match a with
  | ⟨0, _⟩ => show win1_0.index t (0 : Fin 3) * 1 + 1 * 0 = t.val / 4; omega
  | ⟨1, _⟩ => show win1_0.index t (1 : Fin 3) * 256 + 1 * r.val = 256 * (t.val % 4) + r.val; omega
  | ⟨2, _⟩ => show win1_0.index t (2 : Fin 3) * 1024 + 1 * w.val = w.val; omega

/-- The pooled block of point `t` is the image's pooled map, all four classes. -/
theorem iblk1_1_apply (c : Dev nD) (t : Fin cfg1.N) (ch : Fin 4) (r w : Fin 256) :
    (iblk1 V c 1 t : Vec Ideal S1x4x256x256 .f32) (ix4 0 ch r w)
      = (V c main_v0 : S8x4x256x256.Idx → EReal) (ix4 (ptImg t) ch r w) := by
  show V c main_v0 (((cfg1.win 1).blk t).view.emb (ix4 0 ch r w)) = V c main_v0 (ix4 (ptImg t) ch r w)
  refine congrArg _ (funext fun a => Fin.ext ?_)
  obtain ⟨e0, e1, e2, e3⟩ := idx1_1 t
  match a with
  | ⟨0, _⟩ => show win1_1.index t (0 : Fin 4) * 1 + 1 * 0 = t.val / 4; omega
  | ⟨1, _⟩ => show win1_1.index t (1 : Fin 4) * 4 + 1 * ch.val = ch.val; omega
  | ⟨2, _⟩ => show win1_1.index t (2 : Fin 4) * 256 + 1 * r.val = r.val; omega
  | ⟨3, _⟩ => show win1_1.index t (3 : Fin 4) * 256 + 1 * w.val = w.val; omega

/-- The attention block of point `t` is the quarter-band's patches of the image's attention, all four classes. -/
theorem iblk1_2_apply (c : Dev nD) (t : Fin cfg1.N) (ch : Fin 4) (l : Fin 1024) (m : Fin 256) :
    (iblk1 V c 2 t : Vec Ideal S1x4x1024x256 .f32) (ix4 0 ch l m)
      = (V c main_arg2 : S8x4x4096x256.Idx → EReal) (ix4 (ptImg t) ch (bandPatch (ptBand t) l) m) := by
  show V c main_arg2 (((cfg1.win 2).blk t).view.emb (ix4 0 ch l m)) = V c main_arg2 (ix4 (ptImg t) ch (bandPatch (ptBand t) l) m)
  refine congrArg _ (funext fun a => Fin.ext ?_)
  obtain ⟨e0, e1, e2, e3⟩ := idx1_2 t
  match a with
  | ⟨0, _⟩ => show win1_2.index t (0 : Fin 4) * 1 + 1 * 0 = t.val / 4; omega
  | ⟨1, _⟩ => show win1_2.index t (1 : Fin 4) * 4 + 1 * ch.val = ch.val; omega
  | ⟨2, _⟩ => show win1_2.index t (2 : Fin 4) * 1024 + 1 * l.val = 1024 * (t.val % 4) + l.val; omega
  | ⟨3, _⟩ => show win1_2.index t (3 : Fin 4) * 256 + 1 * m.val = m.val; omega

/-! A load through a rectangle, at an index: the whole label block, and one class's plane of a four-class block. -/
theorem ld_rB_apply (x : Vec Ideal S1x256x1024 .i32) (r : Fin 256) (w : Fin 1024) :
    (View.ld x rB : Vec Ideal S1x256x1024 .i32) (ix3 0 r w) = x (ix3 0 r w) :=
  congrArg x (funext fun a => Fin.ext (by
    match a with
    | ⟨0, _⟩ => rfl
    | ⟨1, _⟩ => show 0 + 1 * r.val = r.val; omega
    | ⟨2, _⟩ => show 0 + 1 * w.val = w.val; omega))

theorem ld_planeP_apply (x : Vec Ideal S1x4x256x256 .f32) (ch : Fin 4)
    (inb : ∀ a, (![0, ch.val, 0, 0] : Fin 4 → Nat) a + S1x1x256x256.size a ≤ S1x4x256x256.size a) (r w : Fin 256) :
    (View.ld x (Rect.unit (s := S1x4x256x256) ![0, ch.val, 0, 0] S1x1x256x256.size inb) : Vec Ideal S1x1x256x256 .f32) (ix4 0 0 r w)
      = x (ix4 0 ch r w) :=
  congrArg x (funext fun a => Fin.ext (by
    match a with
    | ⟨0, _⟩ => rfl
    | ⟨1, _⟩ => show ch.val + 1 * 0 = ch.val; omega
    | ⟨2, _⟩ => show 0 + 1 * r.val = r.val; omega
    | ⟨3, _⟩ => show 0 + 1 * w.val = w.val; omega))

theorem ld_planeA_apply (x : Vec Ideal S1x4x1024x256 .f32) (ch : Fin 4)
    (inb : ∀ a, (![0, ch.val, 0, 0] : Fin 4 → Nat) a + S1x1x1024x256.size a ≤ S1x4x1024x256.size a) (l : Fin 1024) (m : Fin 256) :
    (View.ld x (Rect.unit (s := S1x4x1024x256) ![0, ch.val, 0, 0] S1x1x1024x256.size inb) : Vec Ideal S1x1x1024x256 .f32) (ix4 0 0 l m)
      = x (ix4 0 ch l m) :=
  congrArg x (funext fun a => Fin.ext (by
    match a with
    | ⟨0, _⟩ => rfl
    | ⟨1, _⟩ => show ch.val + 1 * 0 = ch.val; omega
    | ⟨2, _⟩ => show 0 + 1 * l.val = l.val; omega
    | ⟨3, _⟩ => show 0 + 1 * m.val = m.val; omega))

/-- The squared errors of class `ch` over the band of point `t`. -/
def bandSq (c : Dev nD) (t : Fin cfg1.N) (ch : Fin 4) : EReal :=
  ∑ l : Fin 1024, ∑ m : Fin 256,
    sqErr (V c main_arg1) (V c main_arg2) (ptImg t) ch (bandPatch (ptBand t) l) m

/-- Over the blocks of point `t`, the class-`ch` pass adds the band's squared errors of that class, when the
    pooled map read is the labels' `pool`. -/
theorem bandErr_point (c : Dev nD)
    (hP : ∀ (b : Fin 8) (ch : Fin 4) (hc wc : Fin 256),
      (V c main_v0 : S8x4x256x256.Idx → EReal) (ix4 b ch hc wc) = pool (V c main_arg1) b ch hc wc)
    (t : Fin cfg1.N) (ch : Fin 4)
    (inbP : ∀ a, (![0, ch.val, 0, 0] : Fin 4 → Nat) a + S1x1x256x256.size a ≤ S1x4x256x256.size a)
    (inbA : ∀ a, (![0, ch.val, 0, 0] : Fin 4 → Nat) a + S1x1x1024x256.size a ≤ S1x4x1024x256.size a) :
    bandErr ch (View.ld (iblk1 V c 0 t) rB)
        (View.ld (iblk1 V c 1 t) (Rect.unit (s := S1x4x256x256) ![0, ch.val, 0, 0] S1x1x256x256.size inbP))
        (View.ld (iblk1 V c 2 t) (Rect.unit (s := S1x4x1024x256) ![0, ch.val, 0, 0] S1x1x1024x256.size inbA))
      = bandSq V c t ch :=
  bandErr_eq (V c main_arg1) (V c main_arg2) (ptImg t) (ptBand t) ch _ _ _
    (fun r w => (ld_rB_apply _ r w).trans (iblk1_0_apply V c t r w))
    (fun r w => (ld_planeP_apply _ ch inbP r w).trans ((iblk1_1_apply V c t ch r w).trans (hP (ptImg t) ch r w)))
    (fun l m => (ld_planeA_apply _ ch inbA l m).trans (iblk1_2_apply V c t ch l m))

/-- One grid point adds to the running scalar the band's squared errors of the four classes, in order. -/
theorem accAt_step (c : Dev nD)
    (hP : ∀ (b : Fin 8) (ch : Fin 4) (hc wc : Fin 256),
      (V c main_v0 : S8x4x256x256.Idx → EReal) (ix4 b ch hc wc) = pool (V c main_arg1) b ch hc wc)
    (t : Fin cfg1.N) :
    accAt V c (t.val + 1) (ix2 0 0)
      = accAt V c t.val (ix2 0 0) + bandSq V c t 0 + bandSq V c t 1 + bandSq V c t 2 + bandSq V c t 3 := by
  rw [accAt_succ]
  unfold accStep
  rw [pay1_apply, pay9_apply, pay7_apply, pay6_eq, pay5_apply]
  refine congrArg₂ (· + ·) (congrArg₂ (· + ·) (congrArg₂ (· + ·) (congrArg₂ (· + ·) rfl ?_) ?_) ?_) ?_
  · exact bandErr_point V c hP t 0 _ _
  · exact bandErr_point V c hP t 1 _ _
  · exact bandErr_point V c hP t 2 _ _
  · exact bandErr_point V c hP t 3 _ _

/-- After the 32 points the running scalar holds every entry's squared error, summed. -/
theorem accAt_total (c : Dev nD)
    (hP : ∀ (b : Fin 8) (ch : Fin 4) (hc wc : Fin 256),
      (V c main_v0 : S8x4x256x256.Idx → EReal) (ix4 b ch hc wc) = pool (V c main_arg1) b ch hc wc) :
    accAt V c 32 (ix2 0 0)
      = ∑ b : Fin 8, ∑ ch : Fin 4, ∑ l : Fin 4096, ∑ m : Fin 256, sqErr (V c main_arg1) (V c main_arg2) b ch l m := by
  -- the four summands of step `n`, as a function of the step's number
  let f : ℕ → Fin 4 → EReal := fun n ch =>
    if h : n < 32 then bandSq V c ⟨n, lt_of_lt_of_eq h N_1.symm⟩ ch else 0
  have hs : ∀ n, n < 32 → accAt V c (n + 1) (ix2 0 0)
      = accAt V c n (ix2 0 0) + f n 0 + f n 1 + f n 2 + f n 3 := fun n hn => by
    have e : ∀ ch, f n ch = bandSq V c ⟨n, lt_of_lt_of_eq hn N_1.symm⟩ ch := fun ch => dif_pos hn
    rw [e, e, e, e]
    exact accAt_step V c hP ⟨n, lt_of_lt_of_eq hn N_1.symm⟩
  refine (fold_eq 32 (fun n => accAt V c n (ix2 0 0)) f pay3_apply hs).trans ?_
  rw [← total_eq]
  refine Finset.sum_congr rfl fun n _ => Finset.sum_congr rfl fun ch _ => ?_
  exact (dif_pos n.isLt).trans rfl

/-- The result array after the run: its one block is written back at the last point, with the running scalar
    of all 32 points, scaled. -/
theorem arr_final (c : Dev nD) :
    (dat1 (F := Ideal) V c).arrAt 3 cfg1.N = k1_pay2 (F := Ideal) (accAt V c 32) := by
  refine (dat1 (F := Ideal) V c).arrAt_eq_of_cover 3 (k1_pay2 (F := Ideal) (accAt V c 32)) (fun t hf => ?_) (fun i => ?_)
  · have hN : t.val < 32 := lt_of_lt_of_eq t.isLt N_1
    have ht : t.val = 31 := by have := (flush1_3 t).mp hf; omega
    have e : accAt V c (t.val + 1) = accAt V c 32 := by rw [ht]
    show (cfg1.win 3).cut (grid1.coords t) ((dat1 (F := Ideal) V c).after 3 t) = _
    rw [after1_3, e]
    funext j
    show k1_pay2 (F := Ideal) (accAt V c 32) ((cfg1.win 3).xinj (grid1.coords t) j)
      = k1_pay2 (F := Ideal) (accAt V c 32) (((cfg1.win 3).blk t).view.emb j)
    refine congrArg _ (funext fun a => Fin.ext ?_)
    obtain ⟨e0, e1⟩ := idx1_3 t
    match a with
    | ⟨0, _⟩ => show (j 0).val = win1_3.index t (0 : Fin 2) * 1 + 1 * (j 0).val; omega
    | ⟨1, _⟩ => show (j 1).val = win1_3.index t (1 : Fin 2) * 1 + 1 * (j 1).val; omega
  · have h31 : (31 : ℕ) < cfg1.N := lt_of_lt_of_eq (by omega : 31 < 32) N_1.symm
    refine ⟨⟨31, h31⟩, (flush1_3 ⟨31, h31⟩).mpr rfl, ?_⟩
    show i ∈ ((View.whole main_v1).slice (win1_3.rect ⟨31, h31⟩)).set
    rw [View.set_slice_whole, Rect.mem_set_unit]
    obtain ⟨e0, e1⟩ := idx1_3 ⟨31, h31⟩
    intro a
    match a with
    | ⟨0, _⟩ =>
      have hi : (i 0).val < 1 := (i 0).isLt
      show win1_3.index ⟨31, h31⟩ (0 : Fin 2) * 1 ≤ (i 0).val ∧ (i 0).val < win1_3.index ⟨31, h31⟩ (0 : Fin 2) * 1 + 1
      omega
    | ⟨1, _⟩ =>
      have hi : (i 1).val < 1 := (i 1).isLt
      show win1_3.index ⟨31, h31⟩ (1 : Fin 2) * 1 ≤ (i 1).val ∧ (i 1).val < win1_3.index ⟨31, h31⟩ (1 : Fin 2) * 1 + 1
      omega

/-- After all 32 points the result array holds the loss, when the pooled map the call reads is the labels' `pool`. -/
theorem loss_final (c : Dev nD)
    (hP : ∀ (b : Fin 8) (ch : Fin 4) (hc wc : Fin 256),
      (V c main_v0 : S8x4x256x256.Idx → EReal) (ix4 b ch hc wc) = pool (V c main_arg1) b ch hc wc) :
    ((dat1 (F := Ideal) V c).arrAt 3 cfg1.N : S1x1.Idx → EReal) (ix2 0 0)
      = loss (V c main_arg1) (V c main_arg2) := by
  rw [arr_final V c, pay2_apply, accAt_total V c hP]
  rfl

end Cert.KernelIdeal.Frame

end
-- ==== Proof.KernelIdeal.ValueFinal.lean ====
/-
  The program's scalar result after the run, as a function of the launch memory: the final reshape reads the
  main call's 1×1 result, which is the loss of the label and attention arguments because the pooled map the
  main call reads is what the pooling call left.
-/
import proofs.«154266_j47399259079182_1_alg».proof.Proof.KernelIdeal.Run
import proofs.«154266_j47399259079182_1_alg».proof.Proof.KernelIdeal.Value0
import proofs.«154266_j47399259079182_1_alg».proof.Proof.KernelIdeal.Value1
import Idealize.ShloMosaic.Lib.StableHlo.Run
import Idealize.ShloMosaic.Lib.Pipeline.Value
import Idealize.ShloMosaic.Lib.ValueLayout

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Loss

variable (m : (ℓ : Loc nD τ sig) → Buf (Elt Ideal) ℓ) (ρ : Dev nD → PrngReg)

/-- The main call's result array after the run holds the loss of the arguments. -/
theorem W3_main_v1 (c : Dev nD) :
    (W3 (F := Ideal) m ρ c (Proc.devRef .tc main_v1) : S1x1.Idx → EReal) (ix2 0 0)
      = loss (m ((c : Thread nD τ).loc main_arg1)) (m ((c : Thread nD τ).loc main_arg2)) := by
  have h := loss_final (V2 (F := Ideal) m ρ) c (fun b ch hc wc => by
    have e : V2 (F := Ideal) m ρ c main_v0 = (dat0 (F := Ideal) (V1 m ρ) c).arrAt 1 cfg0.N := W2_arr m ρ c 1
    rw [e, pooled_final (V1 (F := Ideal) m ρ) c b ch hc wc]
    rw [show V2 (F := Ideal) m ρ c main_arg1 = m ((c : Thread nD τ).loc main_arg1) from W2_main_arg1 m ρ c])
  rw [show V2 (F := Ideal) m ρ c main_arg1 = m ((c : Thread nD τ).loc main_arg1) from W2_main_arg1 m ρ c,
    show V2 (F := Ideal) m ρ c main_arg2 = m ((c : Thread nD τ).loc main_arg2) from W2_main_arg2 m ρ c] at h
  rw [← h]
  exact congrFun (W3_arr m ρ c 3) (ix2 0 0)

/-- The scalar result after the final reshape. -/
theorem W4_main_v2 (c : Dev nD) :
    (W4 (F := Ideal) m ρ c (Proc.devRef .tc main_v2) : S_.Idx → EReal)
      = fun _ => loss (m ((c : Thread nD τ).loc main_arg1)) (m ((c : Thread nD τ).loc main_arg2)) := by
  have e : (W4 (F := Ideal) m ρ c (Proc.devRef .tc main_v2) : S_.Idx → EReal)
      = shapeCast S_ (W3 (F := Ideal) m ρ c (Proc.devRef .tc main_v1) : S1x1.Idx → EReal) Facts₀.shapeCasts_S1x1_S_ := by
    show StableHlo.after hostOps2 _ (Proc.devRef .tc main_v2) = _
    after_results
    rfl
  rw [e]
  funext i
  rw [← W3_main_v1 m ρ c]
  refine shapeCast_apply _ _ i (ix2 0 0) ?_
  have hn1 : S1x1.numel = 1 := by first | decide | rfl | simp [Shape.numel]
  have hn0 : S_.numel = 1 := by first | decide | rfl | simp [Shape.numel]
  exact (Nat.lt_one_iff.mp (lt_of_lt_of_eq (S1x1.rowMajor (ix2 0 0)).isLt hn1)).trans
    (Nat.lt_one_iff.mp (lt_of_lt_of_eq (S_.rowMajor i).isLt hn0)).symm

end Cert.KernelIdeal.Frame

end
-- ==== Proof.RefValue.lean ====
/-
  The reference's result is the loss of the specification: its indicator, 4×4 mean, patch unfolding of both
  maps, contraction over the position in a patch, quotients by 16, 256 and 2²⁵ and its total sum, read at an
  index one operation at a time.
-/
import proofs.«154266_j47399259079182_1_alg».proof.Proof.Gen.ReferenceIdeal.Read
import proofs.«154266_j47399259079182_1_alg».proof.Proof.Spec
import Idealize.ShloMosaic.Lib.ValueIdx
import Idealize.ShloMosaic.Lib.ValueIdxRank6
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Loss

/-! ## The literals, and a quotient by one of them as a product -/

/-- The word `0x41800000` is the real 16. -/
theorem ofBits_sixteen : Ideal.ofBits .f32 0x41800000#32 = ((16 : ℝ) : EReal) := by
  simp [Ideal.ofBits, Ideal.ieee, -EReal.coe_mul]; norm_num

/-- The word `0x43800000` is the real 256. -/
theorem ofBits_256 : Ideal.ofBits .f32 0x43800000#32 = ((256 : ℝ) : EReal) := by
  simp [Ideal.ofBits, Ideal.ieee, -EReal.coe_mul]; norm_num

/-- The word `0x4C000000` is the real 2²⁵. -/
theorem ofBits_two_pow_25 : Ideal.ofBits .f32 0x4C000000#32 = ((33554432 : ℝ) : EReal) := by
  simp [Ideal.ofBits, Ideal.ieee, -EReal.coe_mul]; norm_num

/-- A quotient by 16 is the product with one sixteenth, on every extended real. -/
theorem div_sixteen (x : EReal) : Ideal.div x (Ideal.ofBits .f32 0x41800000#32) = x * ((1 / 16 : ℝ) : EReal) := by
  rw [ofBits_sixteen, Ideal.div_coe (by norm_num)]

/-- A quotient by 256 is the product with its reciprocal. -/
theorem div_256 (x : EReal) : Ideal.div x (Ideal.ofBits .f32 0x43800000#32) = x * ((1 / 256 : ℝ) : EReal) := by
  rw [ofBits_256, Ideal.div_coe (by norm_num)]

/-- A quotient by 2²⁵ is the product with its reciprocal. -/
theorem div_two_pow_25 (x : EReal) : Ideal.div x (Ideal.ofBits .f32 0x4C000000#32) = x * ((1 / 33554432 : ℝ) : EReal) := by
  rw [ofBits_two_pow_25, Ideal.div_coe (by norm_num)]

/-! ## The indicator -/

/-- The one-bit comparison for equality, read as an unsigned number, is the indicator. -/
theorem uitofp_cmpi_eq (x y : BitVec 32) :
    FloatOps.uitofp (F := Ideal) .f32 (IntOp.cmpi .eq x y) = ind x y := by
  show (((IntOp.cmpi .eq x y).toNat : ℝ) : EReal) = ind x y
  unfold ind IntOp.cmpi
  by_cases h : x = y
  · simp [h]
  · simp [h]

/-! ## A sum over a rank-4 index set, by coordinates -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## The sum over the two axes of a pooling cell -/

/-- The index a rank-6 index of the cell-split image drops to when the two in-cell axes are summed away. -/
theorem drop_cell (i : S8x4x256x4x256x4.Idx) :
    reducesTo_S8x4x256x4x256x4_S8x4x256x256_d3_5.drop i = ix4 (i 0) (i 1) (i 2) (i 4) := by
  funext a
  refine Fin.ext ?_
  match a with
  | ⟨0, _⟩ => rfl
  | ⟨1, _⟩ => rfl
  | ⟨2, _⟩ => rfl
  | ⟨3, _⟩ => rfl

/-- The host's sum over axes 3 and 5 of an array of shape [8,4,256,4,256,4], from a zero initial value, read at
    `(b, c, hc, wc)`: the double sum over the two summed coordinates. -/
theorem reduce_cell (y : (⟨S8x4x256x4x256x4, .f32⟩ : BufTy).Contents (Elt Ideal)) (b : Fin 8) (c : Fin 4) (hc wc : Fin 256) :
    Host.reduceAdd (F := Ideal) (φ := .f32) y (val_main_cst_2 (F := Ideal)) reducesTo_S8x4x256x4x256x4_S8x4x256x256_d3_5 h_S_ (ix4 b c hc wc)
      = ∑ di : Fin 4, ∑ dj : Fin 4, y (ix6 b c hc di wc dj) := by
  simp only [Host.reduceAdd, Ideal.hostReduceAdd_def]
  unfold Ideal.hostReduceAdd
  rw [val_main_cst_2_apply, Ideal.ofBits_def, Ideal.ofBits_zero_f32, zero_add,
    ← Fintype.sum_prod_type' (fun di dj : Fin 4 => y (ix6 b c hc di wc dj))]
  have hl : ∀ i ∈ Finset.univ.filter (fun i => reducesTo_S8x4x256x4x256x4_S8x4x256x256_d3_5.drop i = ix4 b c hc wc),
      ix6 b c hc (i 3) wc (i 5) = i := by
    intro i hi
    have hd := (Finset.mem_filter.1 hi).2
    rw [drop_cell] at hd
    have h0 : i 0 = b := congrFun hd 0
    have h1 : i 1 = c := congrFun hd 1
    have h2 : i 2 = hc := congrFun hd 2
    have h4 : i 4 = wc := congrFun hd 3
    rw [← h0, ← h1, ← h2, ← h4]
    exact (eq_ix6 i).symm
  refine Finset.sum_nbij' (fun i => ((i 3 : Fin 4), (i 5 : Fin 4))) (fun p => ix6 b c hc p.1 wc p.2)
    (fun _ _ => Finset.mem_univ _) (fun p _ => Finset.mem_filter.2 ⟨Finset.mem_univ _, ?_⟩) hl (fun _ _ => rfl)
    (fun i hi => congrArg y (hl i hi).symm)
  exact (drop_cell _).trans rfl

/-! ## The indicator stage, read at `(b, c, h, w)` -/

/-- The converted comparison of the broadcast labels with the broadcast class numbers is the indicator of class `c`
    at pixel `(h, w)` of image `b`. -/
theorem indicator_at (x1 : (⟨S8x1024x1024, .i32⟩ : BufTy).Contents (Elt Ideal)) (b : Fin 8) (c : Fin 4) (h w : Fin 1024) :
    val_main_v17 (F := Ideal) x1 (ix4 b c h w) = oh x1 b c h w := by
  rw [val_main_v17_apply, val_main_v16_apply, val_main_v14_apply, val_main_v11_apply, val_main_v15_apply,
    val_main_v13_apply, val_main_v12_apply]
  have e1 : idx_main_v11 (idx_main_v14 (ix4 b c h w)) = ix3 b h w :=
    funext fun a => match a with | ⟨0, _⟩ => rfl | ⟨1, _⟩ => rfl | ⟨2, _⟩ => rfl
  rw [e1]
  exact uitofp_cmpi_eq _ _

/-! ## The image unfolded into 16×16 patches -/

/-- Rows and columns split as (patch-row, row in patch): entry `(lq, kq, lr, kr)` is pixel `(16 lq + kq, 16 lr + kr)`. -/
theorem split_at (x1 : (⟨S8x1024x1024, .i32⟩ : BufTy).Contents (Elt Ideal)) (b : Fin 8) (c : Fin 4) (lq : Fin 64) (kq : Fin 16) (lr : Fin 64) (kr : Fin 16) :
    val_main_v22 (F := Ideal) x1 (ix6 b c lq kq lr kr) = oh x1 b c (row64 lq kq) (row64 lr kr) := by
  unfold val_main_v22
  refine (shapeCast_apply _ shapeCasts_S8x4x1024x1024_S8x4x64x16x64x16 (ix6 b c lq kq lr kr)
    (ix4 b c (row64 lq kq) (row64 lr kr)) ?_).trans (indicator_at x1 b c _ _)
  rw [Shape.rowMajor_val_four, Shape.rowMajor_val_six]
  show ((b.val * 4 + c.val) * 1024 + (16 * lq.val + kq.val)) * 1024 + (16 * lr.val + kr.val)
    = ((((b.val * 4 + c.val) * 64 + lq.val) * 16 + kq.val) * 64 + lr.val) * 16 + kr.val
  omega

/-- The transpose brings the two in-patch coordinates in front of the two patch coordinates. -/
theorem split_transposed_at (x1 : (⟨S8x1024x1024, .i32⟩ : BufTy).Contents (Elt Ideal)) (b : Fin 8) (c : Fin 4) (kq kr : Fin 16) (lq lr : Fin 64) :
    val_main_v23 (F := Ideal) x1 (ix6 b c kq kr lq lr) = oh x1 b c (row64 lq kq) (row64 lr kr) := by
  rw [val_main_v23_apply]
  have e : idx_main_v23 (ix6 b c kq kr lq lr) = ix6 b c lq kq lr kr :=
    funext fun a => match a with
      | ⟨0, _⟩ => rfl | ⟨1, _⟩ => rfl | ⟨2, _⟩ => rfl | ⟨3, _⟩ => rfl | ⟨4, _⟩ => rfl | ⟨5, _⟩ => rfl
  rw [e]
  exact split_at x1 b c lq kq lr kr

/-- The unfolded image: position `k` of patch `l`. -/
theorem unfolded_at (x1 : (⟨S8x1024x1024, .i32⟩ : BufTy).Contents (Elt Ideal)) (b : Fin 8) (c : Fin 4) (k : Fin 256) (l : Fin 4096) :
    val_main_v24 (F := Ideal) x1 (ix4 b c k l) = oh x1 b c (row64 (q64 l) (q16 k)) (row64 (r64 l) (r16 k)) := by
  unfold val_main_v24
  refine (shapeCast_apply _ shapeCasts_S8x4x16x16x64x64_S8x4x256x4096 (ix4 b c k l)
    (ix6 b c (q16 k) (r16 k) (q64 l) (r64 l)) ?_).trans (split_transposed_at x1 b c _ _ _ _)
  rw [Shape.rowMajor_val_four, Shape.rowMajor_val_six]
  show ((((b.val * 4 + c.val) * 16 + k.val / 16) * 16 + k.val % 16) * 64 + l.val / 64) * 64 + l.val % 64
    = ((b.val * 4 + c.val) * 256 + k.val) * 4096 + l.val
  omega

/-! ## The 4×4 mean -/

/-- Rows and columns split as (cell, row in cell): entry `(hc, di, wc, dj)` is pixel `(4 hc + di, 4 wc + dj)`. -/
theorem cells_at (x1 : (⟨S8x1024x1024, .i32⟩ : BufTy).Contents (Elt Ideal)) (b : Fin 8) (c : Fin 4) (hc : Fin 256) (di : Fin 4) (wc : Fin 256) (dj : Fin 4) :
    val_main_v18 (F := Ideal) x1 (ix6 b c hc di wc dj) = oh x1 b c (cell hc di) (cell wc dj) := by
  unfold val_main_v18
  refine (shapeCast_apply _ shapeCasts_S8x4x1024x1024_S8x4x256x4x256x4 (ix6 b c hc di wc dj)
    (ix4 b c (cell hc di) (cell wc dj)) ?_).trans (indicator_at x1 b c _ _)
  rw [Shape.rowMajor_val_four, Shape.rowMajor_val_six]
  show ((b.val * 4 + c.val) * 1024 + (4 * hc.val + di.val)) * 1024 + (4 * wc.val + dj.val)
    = ((((b.val * 4 + c.val) * 256 + hc.val) * 4 + di.val) * 256 + wc.val) * 4 + dj.val
  omega

/-- The sum over a cell. -/
theorem cell_sum_at (x1 : (⟨S8x1024x1024, .i32⟩ : BufTy).Contents (Elt Ideal)) (b : Fin 8) (c : Fin 4) (hc wc : Fin 256) :
    val_main_v19 (F := Ideal) x1 (ix4 b c hc wc) = ∑ di : Fin 4, ∑ dj : Fin 4, oh x1 b c (cell hc di) (cell wc dj) := by
  unfold val_main_v19
  rw [reduce_cell]
  exact Finset.sum_congr rfl fun di _ => Finset.sum_congr rfl fun dj _ => cells_at x1 b c hc di wc dj

/-- The quotient by 16: the pooled indicator. -/
theorem pooled_at (x1 : (⟨S8x1024x1024, .i32⟩ : BufTy).Contents (Elt Ideal)) (b : Fin 8) (c : Fin 4) (hc wc : Fin 256) :
    val_main_v21 (F := Ideal) x1 (ix4 b c hc wc) = pool x1 b c hc wc := by
  rw [val_main_v21_apply, val_main_v20_apply, val_main_cst_3_apply, cell_sum_at, Ideal.hostDivf_def, Ideal.ofBits_def,
    div_sixteen]
  rfl

/-! ## The pooled map unfolded into 16×16 patches -/

/-- Rows and columns of the pooled map split as (patch-row, row in patch). -/
theorem pooled_split_at (x1 : (⟨S8x1024x1024, .i32⟩ : BufTy).Contents (Elt Ideal)) (b : Fin 8) (c : Fin 4) (mq kq mr kr : Fin 16) :
    val_main_v25 (F := Ideal) x1 (ix6 b c mq kq mr kr) = pool x1 b c (row16 mq kq) (row16 mr kr) := by
  unfold val_main_v25
  refine (shapeCast_apply _ shapeCasts_S8x4x256x256_S8x4x16x16x16x16 (ix6 b c mq kq mr kr)
    (ix4 b c (row16 mq kq) (row16 mr kr)) ?_).trans (pooled_at x1 b c _ _)
  rw [Shape.rowMajor_val_four, Shape.rowMajor_val_six]
  show ((b.val * 4 + c.val) * 256 + (16 * mq.val + kq.val)) * 256 + (16 * mr.val + kr.val)
    = ((((b.val * 4 + c.val) * 16 + mq.val) * 16 + kq.val) * 16 + mr.val) * 16 + kr.val
  omega

/-- The transpose brings the two in-patch coordinates in front of the two patch coordinates. -/
theorem pooled_split_transposed_at (x1 : (⟨S8x1024x1024, .i32⟩ : BufTy).Contents (Elt Ideal)) (b : Fin 8) (c : Fin 4) (kq kr mq mr : Fin 16) :
    val_main_v26 (F := Ideal) x1 (ix6 b c kq kr mq mr) = pool x1 b c (row16 mq kq) (row16 mr kr) := by
  rw [val_main_v26_apply]
  have e : idx_main_v26 (ix6 b c kq kr mq mr) = ix6 b c mq kq mr kr :=
    funext fun a => match a with
      | ⟨0, _⟩ => rfl | ⟨1, _⟩ => rfl | ⟨2, _⟩ => rfl | ⟨3, _⟩ => rfl | ⟨4, _⟩ => rfl | ⟨5, _⟩ => rfl
  rw [e]
  exact pooled_split_at x1 b c mq kq mr kr

/-- The unfolded pooled map: position `k` of pooled patch `m`. -/
theorem pooled_unfolded_at (x1 : (⟨S8x1024x1024, .i32⟩ : BufTy).Contents (Elt Ideal)) (b : Fin 8) (c : Fin 4) (k m : Fin 256) :
    val_main_v27 (F := Ideal) x1 (ix4 b c k m) = pool x1 b c (row16 (q16 m) (q16 k)) (row16 (r16 m) (r16 k)) := by
  unfold val_main_v27
  refine (shapeCast_apply _ shapeCasts_S8x4x16x16x16x16_S8x4x256x256 (ix4 b c k m)
    (ix6 b c (q16 k) (r16 k) (q16 m) (r16 m)) ?_).trans (pooled_split_transposed_at x1 b c _ _ _ _)
  rw [Shape.rowMajor_val_four, Shape.rowMajor_val_six]
  show ((((b.val * 4 + c.val) * 16 + k.val / 16) * 16 + k.val % 16) * 16 + m.val / 16) * 16 + m.val % 16
    = ((b.val * 4 + c.val) * 256 + k.val) * 256 + m.val
  omega

/-! ## The contraction over the position in a patch, and the squared error -/

/-- The contraction divided by 256 is the target attention. -/
theorem target_at (x1 : (⟨S8x1024x1024, .i32⟩ : BufTy).Contents (Elt Ideal)) (b : Fin 8) (c : Fin 4) (l : Fin 4096) (m : Fin 256) :
    val_main_v30 (F := Ideal) x1 (ix4 b c l m) = target x1 b c l m := by
  rw [val_main_v30_apply, val_main_v29_apply, val_main_cst_4_apply, val_main_v28_apply, Ideal.hostDivf_def,
    Ideal.ofBits_def, div_256]
  unfold target
  refine congrArg (· * _) (Finset.sum_congr rfl fun k _ => ?_)
  have el : lidx_main_v28 (ix4 b c l m) k = ix4 b c k l :=
    funext fun a => match a with | ⟨0, _⟩ => rfl | ⟨1, _⟩ => rfl | ⟨2, _⟩ => rfl | ⟨3, _⟩ => rfl
  have er : ridx_main_v28 (ix4 b c l m) k = ix4 b c k m :=
    funext fun a => match a with | ⟨0, _⟩ => rfl | ⟨1, _⟩ => rfl | ⟨2, _⟩ => rfl | ⟨3, _⟩ => rfl
  rw [el, er, unfolded_at, pooled_unfolded_at]

/-- The squared difference of the attention and the target. -/
theorem sq_err_at (x1 : (⟨S8x1024x1024, .i32⟩ : BufTy).Contents (Elt Ideal)) (x2 : (⟨S8x4x4096x256, .f32⟩ : BufTy).Contents (Elt Ideal)) (b : Fin 8) (c : Fin 4) (l : Fin 4096) (m : Fin 256) :
    val_main_v32 (F := Ideal) x1 x2 (ix4 b c l m) = sqErr x1 x2 b c l m := by
  rw [val_main_v32_apply, val_main_v31_apply, target_at, Ideal.mulf_def, Ideal.subf_def]
  rfl

/-! ## The total -/

theorem ref_loss (x1 : (⟨S8x1024x1024, .i32⟩ : BufTy).Contents (Elt Ideal)) (x2 : (⟨S8x4x4096x256, .f32⟩ : BufTy).Contents (Elt Ideal)) :
    val_main_v34 (F := Ideal) x1 x2 = fun _ => loss x1 x2 := by
  funext i
  rw [val_main_v34_apply, val_main_cst_6_apply, val_main_v33_apply, val_main_cst_5_apply, Ideal.hostDivf_def,
    Ideal.ofBits_def, Ideal.ofBits_def, Ideal.ofBits_zero_f32, zero_add, div_two_pow_25, sum_idx4]
  unfold loss
  refine congrArg (· * _) ?_
  exact Finset.sum_congr rfl fun b _ => Finset.sum_congr rfl fun c _ => Finset.sum_congr rfl fun l _ =>
    Finset.sum_congr rfl fun m _ => sq_err_at x1 x2 b c l m

end Cert.ReferenceIdeal.RefValue

end
-- ==== Proof.lean ====
/-
  Two programs compute a mean-squared attention loss from a label map and attention maps. The kernel program
  pools the class indicators over 4×4 cells in one call and, in a second call, walks the images in quarter
  bands, contracting the unfolded indicators with the unfolded pooled map, and keeps a running sum of squared
  differences that it scales once at the end; the reference computes the same quantities as whole arrays. Over
  the extended reals both results are the specification's `loss`: every scale is a power of two (a product with
  the reciprocal is the quotient), and the two orders of summation agree because addition of extended reals is
  commutative and associative. The frames: each program runs to the end from any memory and leaves its
  arguments as it found them; the idealized kernel is the kernel's own text, so nothing is to be preserved.
-/
import proofs.«154266_j47399259079182_1_alg».proof.Defs
import proofs.«154266_j47399259079182_1_alg».proof.Proof.Gen.Kernel
import proofs.«154266_j47399259079182_1_alg».proof.Proof.Gen.KernelIdeal
import proofs.«154266_j47399259079182_1_alg».proof.Proof.Gen.ReferenceIdeal
import proofs.«154266_j47399259079182_1_alg».proof.Proof.Gen.Pre_finite_inputs
import proofs.«154266_j47399259079182_1_alg».proof.Proof.Gen.ReferenceIdeal.Run
import proofs.«154266_j47399259079182_1_alg».proof.Proof.Gen.ReferenceIdeal.Read
import proofs.«154266_j47399259079182_1_alg».proof.Proof.Kernel.Run
import proofs.«154266_j47399259079182_1_alg».proof.Proof.KernelIdeal.Run
import proofs.«154266_j47399259079182_1_alg».proof.Proof.KernelIdeal.ValueFinal
import proofs.«154266_j47399259079182_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_kernel : Cert.frame_Kernel := fun m ρ _ => Cert.Kernel.Frame.frame (F := Bits) m ρ

/-- So does the idealized kernel program. -/
theorem frame_kernelIdeal : Cert.frame_KernelIdeal := fun m ρ _ => Cert.KernelIdeal.Frame.frame (F := Ideal) m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the loss of the label and attention arguments. -/
theorem algebraic : Cert.algebraic_KernelIdeal_ReferenceIdeal := by
  intro m ρ m' ρ' _ hagree
  refine ⟨fun c => fun _ => Cert.Loss.loss (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Frame.W4_main_v2 m ρ c), (h c).2⟩)
      (Cert.KernelIdeal.Frame.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, Cert.ReferenceIdeal.RefValue.ref_loss, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
